-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x40 : Shape := ⟨2, ![64, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn {F : FTy → Type} [FloatOps F] (main_arg0 : FVec F S100000x64 .f32) (main_arg1 : IVec S2x1600000 32) (main_arg2 : FVec F S64x40 .f32) (main_arg3 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x40 .f32 := Host.absf main_arg2
  let main_cst_0 : FVec F S_ .f32 := constant S_ .f32 0x7F800000#32
  let main_v5 : FVec F S64x40 .f32 := broadcastInDim S64x40 ![] bcast_S_S64x40 main_cst_0
  let main_v6 : IVec S64x40 1 := cmpf .olt main_v4 main_v5
  let main_c_1 : IVec S_ 1 := constantI S_ 1 1#1
  let main_v7 : IVec S_ 1 := (fun x v => Host.reduce IntOp.andi x v reducesTo_S64x40_S_d0_1 h_S_) main_v6 main_c_1
  let main_v8 : IVec S_ 1 := andi main_v3 main_v7
  let main_v9 : FVec F S40 .f32 := Host.absf main_arg3
  let main_cst_2 : FVec F S_ .f32 := constant S_ .f32 0x7F800000#32
  let main_v10 : FVec F S40 .f32 := broadcastInDim S40 ![] bcast_S_S40 main_cst_2
  let main_v11 : IVec S40 1 := cmpf .olt main_v9 main_v10
  let main_c_3 : IVec S_ 1 := constantI S_ 1 1#1
  let main_v12 : IVec S_ 1 := (fun x v => Host.reduce IntOp.andi x v reducesTo_S40_S_d0 h_S_) main_v11 main_c_3
  let main_v13 : IVec S_ 1 := andi main_v8 main_v12
  main_v13
-- ==== Kernel.lean ====
abbrev S100000x64 : Shape := ⟨2, ![100000, 64]⟩
abbrev S2x1600000 : Shape := ⟨2, ![2, 1600000]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S20000x64 : Shape := ⟨2, ![20000, 64]⟩
abbrev S20000x1 : Shape := ⟨2, ![20000, 1]⟩
abbrev S1x40 : Shape := ⟨2, ![1, 40]⟩
abbrev S100000x40 : Shape := ⟨2, ![100000, 40]⟩
abbrev S10000x64 : Shape := ⟨2, ![10000, 64]⟩
abbrev S10000x40 : Shape := ⟨2, ![10000, 40]⟩
abbrev S10000 : Shape := ⟨1, ![10000]⟩
abbrev S10000x1 : Shape := ⟨2, ![10000, 1]⟩

abbrev nBuf : Space → Nat
  | .hbm => 75
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x40, .f32⟩
  | .hbm, ⟨3, _⟩ => ⟨S40, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S1700000x1, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S1700000x64, .f32⟩
  | .hbm, ⟨55, _⟩ => ⟨S_, .f32⟩
  | .hbm, ⟨56, _⟩ => ⟨S100000x64, .f32⟩
  | .hbm, ⟨57, _⟩ => ⟨S1700000x1, .i32⟩
  | .hbm, ⟨58, _⟩ => ⟨S100000x64, .f32⟩
  | .hbm, ⟨59, _⟩ => ⟨S_, .i32⟩
  | .hbm, ⟨60, _⟩ => ⟨S1700000, .i32⟩
  | .hbm, ⟨61, _⟩ => ⟨S1700000, .i1⟩
  | .hbm, ⟨62, _⟩ => ⟨S_, .i32⟩
  | .hbm, ⟨63, _⟩ => ⟨S1700000, .i32⟩
  | .hbm, ⟨64, _⟩ => ⟨S1700000, .i32⟩
  | .hbm, ⟨65, _⟩ => ⟨S1700000, .i32⟩
  | .hbm, ⟨66, _⟩ => ⟨S1700000x1, .i32⟩
  | .hbm, ⟨67, _⟩ => ⟨S1700000x64, .f32⟩
  | .hbm, ⟨68, _⟩ => ⟨S1700000x64, .f32⟩
  | .hbm, ⟨69, _⟩ => ⟨S_, .f32⟩
  | .hbm, ⟨70, _⟩ => ⟨S100000x64, .f32⟩
  | .hbm, ⟨71, _⟩ => ⟨S1700000x1, .i32⟩
  | .hbm, ⟨72, _⟩ => ⟨S100000x64, .f32⟩
  | .hbm, ⟨73, _⟩ => ⟨S1x40, .f32⟩
  | .hbm, ⟨74, _⟩ => ⟨S100000x40, .f32⟩
  | .local _ .vmem, ⟨0, _⟩ => ⟨S20000x64, .f32⟩
  | .local _ .vmem, ⟨1, _⟩ => ⟨S20000x64, .f32⟩
  | .local _ .vmem, ⟨2, _⟩ => ⟨S20000x1, .f32⟩
  | .local _ .vmem, ⟨3, _⟩ => ⟨S20000x1, .f32⟩
  | .local _ .vmem, ⟨4, _⟩ => ⟨S20000x64, .f32⟩
  | .local _ .vmem, ⟨5, _⟩ => ⟨S20000x64, .f32⟩
  | .local _ .vmem, ⟨6, _⟩ => ⟨S20000x64, .f32⟩
  | .local _ .vmem, ⟨7, _⟩ => ⟨S20000x64, .f32⟩
  | .local _ .vmem, ⟨8, _⟩ => ⟨S20000x1, .f32⟩
  | .local _ .vmem, ⟨9, _⟩ => ⟨S20000x1, .f32⟩
  | .local _ .vmem, ⟨10, _⟩ => ⟨S20000x64, .f32⟩
  | .local _ .vmem, ⟨11, _⟩ => ⟨S20000x64, .f32⟩
  | .local _ .vmem, ⟨12, _⟩ => ⟨S10000x64, .f32⟩
  | .local _ .vmem, ⟨13, _⟩ => ⟨S10000x64, .f32⟩
  | .local _ .vmem, ⟨14, _⟩ => ⟨S64x40, .f32⟩
  | .local _ .vmem, ⟨15, _⟩ => ⟨S1x40, .f32⟩
  | .local _ .vmem, ⟨16, _⟩ => ⟨S10000x40, .f32⟩
  | .local _ .vmem, ⟨17, _⟩ => ⟨S10000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_9 : Ref sig .tc := ⟨.hbm, 59, rfl⟩
abbrev main_v42 : Ref sig .tc := ⟨.hbm, 60, rfl⟩
abbrev main_v43 : Ref sig .tc := ⟨.hbm, 61, rfl⟩
abbrev main_c_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_11 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨1, ![85], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S20000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![85], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S20000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S20000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S20000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S1700000_S1700000x1 : S1700000.ShapeCasts S1700000x1
  inb_S20000x64_S20000x64_0_0 : ∀ a, (![0, 0] : Fin 2 → Nat) a + S20000x64.size a ≤ S20000x64.size a
  h_S20000x64 : 0 < S20000x64.numel
  shapeCasts_S20000x64_S20000x64 : S20000x64.ShapeCasts S20000x64
  inb_S20000x1_S20000x1_0_0 : ∀ a, (![0, 0] : Fin 2 → Nat) a + S20000x1.size a ≤ S20000x1.size a
  h_S20000x1 : 0 < S20000x1.numel
  shapeCasts_S20000x1_S20000x1 : S20000x1.ShapeCasts S20000x1
  broadcasts_S20000x1_S20000x64 : S20000x1.Broadcasts S20000x64
  bcast_S_S100000x64 : S_.BroadcastsInDim S100000x64 (![] : Fin 0 → Fin S100000x64.rank)
  shapeCasts_S40_S1x40 : S40.ShapeCasts S1x40
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  inb_S10000x40_S10000x40_0_0 : ∀ a, (![0, 0] : Fin 2 → Nat) a + S10000x40.size a ≤ S10000x40.size a
  h_S10000x40 : 0 < S10000x40.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x40_S10000x40_1_0_0_1_n_n_wf : DotDims.WF S10000x64 S64x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x64.size a ≤ S1700000x64.size a
  hwx0_0 : ∀ i : grid0.Coords, EltTy.bits .f32 = 32 ∨ (Rect.block (s := S1700000x64) S20000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x1.size a ≤ S1700000x1.size a
  hwx0_1 : ∀ i : grid0.Coords, EltTy.bits .f32 = 32 ∨ (Rect.block (s := S1700000x1) S20000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x64.size a ≤ S1700000x64.size a
  hwx0_2 : ∀ i : grid0.Coords, EltTy.bits .f32 = 32 ∨ (Rect.block (s := S1700000x64) S20000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S20000x64.size a ≤ S1700000x64.size a
  hwx1_0 : ∀ i : grid1.Coords, EltTy.bits .f32 = 32 ∨ (Rect.block (s := S1700000x64) S20000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S20000x1.size a ≤ S1700000x1.size a
  hwx1_1 : ∀ i : grid1.Coords, EltTy.bits .f32 = 32 ∨ (Rect.block (s := S1700000x1) S20000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S20000x64.size a ≤ S1700000x64.size a
  hwx1_2 : ∀ i : grid1.Coords, EltTy.bits .f32 = 32 ∨ (Rect.block (s := S1700000x64) S20000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .f32 = 32 ∨ (Rect.block (s := S64x40) S64x40.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x40.size a ≤ S100000x40.size a
  hwx2_3 : ∀ i : grid2.Coords, EltTy.bits .f32 = 32 ∨ (Rect.block (s := S100000x40) S10000x40.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf

abbrev win0_0 : Pipeline.Window sig grid0 :=
  Pipeline.Window.ofSpec (Memref.whole main_v37) S20000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S20000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v38) S20000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S20000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S20000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v49) S20000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v52) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S10000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 95
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x40, .f32⟩
  | .hbm, ⟨3, _⟩ => ⟨S40, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S1700000x1, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S1700000x64, .f32⟩
  | .hbm, ⟨55, _⟩ => ⟨S1700000x64, .f32⟩
  | .hbm, ⟨56, _⟩ => ⟨S_, .f32⟩
  | .hbm, ⟨57, _⟩ => ⟨S100000x64, .f32⟩
  | .hbm, ⟨58, _⟩ => ⟨S1700000x1, .i32⟩
  | .hbm, ⟨59, _⟩ => ⟨S100000x64, .f32⟩
  | .hbm, ⟨60, _⟩ => ⟨S1700000x1, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x64, .f32⟩
  | .hbm, ⟨70, _⟩ => ⟨S1700000x64, .f32⟩
  | .hbm, ⟨71, _⟩ => ⟨S1700000x64, .f32⟩
  | .hbm, ⟨72, _⟩ => ⟨S_, .f32⟩
  | .hbm, ⟨73, _⟩ => ⟨S100000x64, .f32⟩
  | .hbm, ⟨74, _⟩ => ⟨S1700000x1, .i32⟩
  | .hbm, ⟨75, _⟩ => ⟨S100000x64, .f32⟩
  | .hbm, ⟨76, _⟩ => ⟨S100000x40, .f32⟩
  | .hbm, ⟨77, _⟩ => ⟨S1x40, .f32⟩
  | .hbm, ⟨78, _⟩ => ⟨S100000x40, .f32⟩
  | .hbm, ⟨79, _⟩ => ⟨S100000x40, .f32⟩
  | .hbm, ⟨80, _⟩ => ⟨S_, .f32⟩
  | .hbm, ⟨81, _⟩ => ⟨S100000, .f32⟩
  | .hbm, ⟨82, _⟩ => ⟨S_, .f32⟩
  | .hbm, ⟨83, _⟩ => ⟨S100000, .f32⟩
  | .hbm, ⟨84, _⟩ => ⟨S100000, .f32⟩
  | .hbm, ⟨85, _⟩ => ⟨S100000x1, .f32⟩
  | .hbm, ⟨86, _⟩ => ⟨S100000x40, .f32⟩
  | .hbm, ⟨87, _⟩ => ⟨S100000x40, .f32⟩
  | .hbm, ⟨88, _⟩ => ⟨S100000x40, .f32⟩
  | .hbm, ⟨89, _⟩ => ⟨S_, .f32⟩
  | .hbm, ⟨90, _⟩ => ⟨S100000, .f32⟩
  | .hbm, ⟨91, _⟩ => ⟨S100000x1, .f32⟩
  | .hbm, ⟨92, _⟩ => ⟨S100000x1, .f32⟩
  | .hbm, ⟨93, _⟩ => ⟨S100000x40, .f32⟩
  | .hbm, ⟨94, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_9 : Ref sig .tc := ⟨.hbm, 61, rfl⟩
abbrev main_v44 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_11 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_call1_cst : Ref sig .tc := ⟨.hbm, 80, rfl⟩
abbrev main_call1_v0 : Ref sig .tc := ⟨.hbm, 81, rfl⟩
abbrev main_call1_cst_0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_call1_v5 : Ref sig .tc := ⟨.hbm, 87, rfl⟩
abbrev main_call1_v6 : Ref sig .tc := ⟨.hbm, 88, rfl⟩
abbrev main_call1_cst_1 : Ref sig .tc := ⟨.hbm, 89, rfl⟩
abbrev main_call1_v7 : Ref sig .tc := ⟨.hbm, 90, rfl⟩
abbrev main_call1_v8 : Ref sig .tc := ⟨.hbm, 91, rfl⟩
abbrev main_call1_v9 : Ref sig .tc := ⟨.hbm, 92, rfl⟩
abbrev main_call1_v10 : Ref sig .tc := ⟨.hbm, 93, rfl⟩
abbrev main_v60 : Ref sig .tc := ⟨.hbm, 94, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.RefRunSteps.lean ====
/-
  The run of the reference program, read over its stages.

  The reference is a straight line of 91 tensor operations: the edge list with a self loop appended for every node, the
  degree of each node as a scatter-add of ones, its inverse square root (zero for an isolated node), the weight of each
  edge as the product of its endpoints' inverse square roots, two hops of "gather the source rows, scale by the edge
  weight, scatter-add into the target rows", the linear layer, and the row-wise log-softmax. Every weakly fair execution
  ends with each buffer at the fold of the operations' results over the launch contents. That fold is read here in six
  stretches: after each stretch, every buffer a later stretch reads holds the reference's stage of that buffer (the
  operation applied to the earlier stages) as a function of the four arguments, and a buffer a stretch does not write
  keeps what it held. The last stretch leaves the result buffer at the last stage.
-/
import proofs.«138171_j6700148982288_1_alg».proof.Proof.Gen.ReferenceIdeal
import proofs.«138171_j6700148982288_1_alg».proof.Proof.RefRead
import Idealize.ShloMosaic.Lib.StableHlo.Run

set_option Elab.async false

noncomputable section

namespace Cert.ReferenceIdeal.RunSteps

open Cert.ReferenceIdeal Cert.ReferenceIdeal.Gen Idealize.ShloMosaic Idealize.ShloMosaic.TcCoe Idealize.SL.Sem Idealize.ShloMosaic.StableHlo Cert.ReferenceIdeal.ReadP

variable {F : FTy → Type} [FloatOps F]

/-! ## The operations, in six stretches -/

/-- Operations 1–18: the edge list's two rows, each with the self loops appended; the degree (a scatter-add of ones), its sign test and its inverse square root. -/
abbrev opsA : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v3 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf (F := F) .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- Operations 19–21: the select that gives an isolated node weight zero. -/
abbrev opsB : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- Operations 22–50: the per-edge weight (the two endpoints' inverse square roots, gathered and multiplied) as a vector and as a column, and the first hop's gathered rows. -/
abbrev opsC : List (HloOp τ sig (Elt F)) :=
  [ nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    unary main_v29 main_v30 (broadcastInDim S1700000x1 ![0] bcast_S1700000_S1700000x1_0 : (⟨S1700000, .f32⟩ : BufTy).Contents (Elt F) → (⟨S1700000x1, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v6 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v6 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v6 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_arg0 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)) ]

/-- Operations 51–66: the first hop's weighted rows scatter-added, and the second hop's gathered rows. -/
abbrev opsD : List (HloOp τ sig (Elt F)) :=
  [ unary main_v30 main_v38 (broadcastInDim S1700000x64 ![0, 1] bcast_S1700000x1_S1700000x64_0_1 : (⟨S1700000x1, .f32⟩ : BufTy).Contents (Elt F) → (⟨S1700000x64, .f32⟩ : BufTy).Contents (Elt F)),
    binary main_v38 main_v37 main_v39 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v40 (broadcastInDim S100000x64 ![] bcast_S_S100000x64 : (⟨S_, .f32⟩ : BufTy).Contents (Elt F) → (⟨S100000x64, .f32⟩ : BufTy).Contents (Elt F)),
    unary main_v3 main_v41 (broadcastInDim S1700000x1 ![0] bcast_S1700000_S1700000x1_0 : (⟨S1700000, .i32⟩ : BufTy).Contents (Elt F) → (⟨S1700000x1, .i32⟩ : BufTy).Contents (Elt F)),
    ternary main_v40 main_v41 main_v39 main_v42 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_v29 main_v43 (broadcastInDim S1700000x1 ![0] bcast_S1700000_S1700000x1_0 : (⟨S1700000, .f32⟩ : BufTy).Contents (Elt F) → (⟨S1700000x1, .f32⟩ : BufTy).Contents (Elt F)),
    nullary main_c_9 (constantI S_ 32 0#32),
    unary main_c_9 main_v44 (broadcastInDim S1700000 ![] bcast_S_S1700000 : (⟨S_, .i32⟩ : BufTy).Contents (Elt F) → (⟨S1700000, .i32⟩ : BufTy).Contents (Elt F)),
    binary main_v6 main_v44 main_v45 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v46 (broadcastInDim S1700000 ![] bcast_S_S1700000 : (⟨S_, .i32⟩ : BufTy).Contents (Elt F) → (⟨S1700000, .i32⟩ : BufTy).Contents (Elt F)),
    binary main_v6 main_v46 main_v47 (addi : (⟨S1700000, .i32⟩ : BufTy).Contents (Elt F) → (⟨S1700000, .i32⟩ : BufTy).Contents (Elt F) → (⟨S1700000, .i32⟩ : BufTy).Contents (Elt F)),
    ternary main_v45 main_v47 main_v6 main_v48 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v48 main_v49 (broadcastInDim S1700000x1 ![0] bcast_S1700000_S1700000x1_0 : (⟨S1700000, .i32⟩ : BufTy).Contents (Elt F) → (⟨S1700000x1, .i32⟩ : BufTy).Contents (Elt F)),
    binary main_v42 main_v49 main_v50 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)) ]

/-- Operations 67–76: the second hop's weighted rows scatter-added, the product with the weights, the bias added. -/
abbrev opsE : List (HloOp τ sig (Elt F)) :=
  [ unary main_v43 main_v51 (broadcastInDim S1700000x64 ![0, 1] bcast_S1700000x1_S1700000x64_0_1 : (⟨S1700000x1, .f32⟩ : BufTy).Contents (Elt F) → (⟨S1700000x64, .f32⟩ : BufTy).Contents (Elt F)),
    binary main_v51 main_v50 main_v52 (mulf : (⟨S1700000x64, .f32⟩ : BufTy).Contents (Elt F) → (⟨S1700000x64, .f32⟩ : BufTy).Contents (Elt F) → (⟨S1700000x64, .f32⟩ : BufTy).Contents (Elt F)),
    nullary main_cst_11 (constant S_ .f32 0x00000000#32),
    unary main_cst_11 main_v53 (broadcastInDim S100000x64 ![] bcast_S_S100000x64 : (⟨S_, .f32⟩ : BufTy).Contents (Elt F) → (⟨S100000x64, .f32⟩ : BufTy).Contents (Elt F)),
    unary main_v3 main_v54 (broadcastInDim S1700000x1 ![0] bcast_S1700000_S1700000x1_0 : (⟨S1700000, .i32⟩ : BufTy).Contents (Elt F) → (⟨S1700000x1, .i32⟩ : BufTy).Contents (Elt F)),
    ternary main_v53 main_v54 main_v52 main_v55 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    binary main_v55 main_arg2 main_v56 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg3 main_v57 (broadcastInDim S1x40 ![1] bcast_S40_S1x40_1 : (⟨S40, .f32⟩ : BufTy).Contents (Elt F) → (⟨S1x40, .f32⟩ : BufTy).Contents (Elt F)),
    unary main_v57 main_v58 (broadcastInDim S100000x40 ![0, 1] bcast_S1x40_S100000x40_0_1 : (⟨S1x40, .f32⟩ : BufTy).Contents (Elt F) → (⟨S100000x40, .f32⟩ : BufTy).Contents (Elt F)),
    binary main_v56 main_v58 main_v59 (addf : (⟨S100000x40, .f32⟩ : BufTy).Contents (Elt F) → (⟨S100000x40, .f32⟩ : BufTy).Contents (Elt F) → (⟨S100000x40, .f32⟩ : BufTy).Contents (Elt F)) ]

/-- Operations 77–91: the row-wise log-softmax. -/
abbrev opsG : List (HloOp τ sig (Elt F)) :=
  [ TRef.nullary (TRef.of (T := ⟨S_, .f32⟩) main_call1_cst) (constant S_ .f32 0xFF800000#32),
    TRef.binary (TRef.of (T := ⟨S100000x40, .f32⟩) main_v59) (TRef.of (T := ⟨S_, .f32⟩) main_call1_cst) (TRef.of (T := ⟨S100000, .f32⟩) main_call1_v0) (fun x v => Host.reduce FloatOps.maximumf x v reducesTo_S100000x40_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x40, .f32⟩) main_call1_v4) (broadcastInDim S100000x40 ![0, 1] bcast_S100000x1_S100000x40_0_1),
    TRef.binary (TRef.of (T := ⟨S100000x40, .f32⟩) main_v59) (TRef.of (T := ⟨S100000x40, .f32⟩) main_call1_v4) (TRef.of (T := ⟨S100000x40, .f32⟩) main_call1_v5) subf,
    TRef.unary (TRef.of (T := ⟨S100000x40, .f32⟩) main_call1_v5) (TRef.of (T := ⟨S100000x40, .f32⟩) main_call1_v6) Host.exp,
    TRef.nullary (TRef.of (T := ⟨S_, .f32⟩) main_call1_cst_1) (constant S_ .f32 0x00000000#32),
    TRef.binary (TRef.of (T := ⟨S100000x40, .f32⟩) main_call1_v6) (TRef.of (T := ⟨S_, .f32⟩) main_call1_cst_1) (TRef.of (T := ⟨S100000, .f32⟩) main_call1_v7) (fun x v => Host.reduceAdd x v reducesTo_S100000x40_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x40, .f32⟩) main_call1_v10) (broadcastInDim S100000x40 ![0, 1] bcast_S100000x1_S100000x40_0_1),
    TRef.binary (TRef.of (T := ⟨S100000x40, .f32⟩) main_call1_v5) (TRef.of (T := ⟨S100000x40, .f32⟩) main_call1_v10) (TRef.of (T := ⟨S100000x40, .f32⟩) main_v60) subf ]

/-- @main's 91 operations, in order (a called function's operations stand in its call's place). -/
abbrev ops : List (HloOp τ sig (Elt F)) := opsA ++ opsB ++ opsC ++ opsD ++ opsE ++ opsG

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only, stretch by stretch. -/
theorem opsA_sub : (opsA : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub ..⟩
theorem opsB_sub : (opsB : List (HloOp τ sig (Elt F))).Forall fun op => op.bufs ⊆ tcRefs τ sig :=
  ⟨unary_bufs_sub .., unary_bufs_sub .., ternary_bufs_sub ..⟩
theorem opsC_sub : (opsC : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub ..⟩
theorem opsD_sub : (opsD : List (HloOp τ sig (Elt F))).Forall fun op => op.bufs ⊆ tcRefs τ sig :=
  ⟨unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub ..⟩
theorem opsE_sub : (opsE : List (HloOp τ sig (Elt F))).Forall fun op => op.bufs ⊆ tcRefs τ sig :=
  ⟨unary_bufs_sub .., binary_bufs_sub .., nullary_bufs_sub .., unary_bufs_sub .., unary_bufs_sub .., ternary_bufs_sub .., binary_bufs_sub .., unary_bufs_sub .., unary_bufs_sub .., binary_bufs_sub ..⟩
theorem opsG_sub : (opsG : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩
theorem ops_sub : (ops : List (HloOp τ sig (Elt F))).Forall fun op => op.bufs ⊆ tcRefs τ sig :=
  List.forall_append.mpr ⟨List.forall_append.mpr ⟨List.forall_append.mpr ⟨List.forall_append.mpr ⟨List.forall_append.mpr
    ⟨opsA_sub, opsB_sub⟩, opsC_sub⟩, opsD_sub⟩, opsE_sub⟩, opsG_sub⟩

/-- The fold over two stretches in a row is the second stretch's fold from the first's. -/
theorem after_two : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by rw [List.cons_append, after_cons, after_cons, after_two l₁ l₂]

/-- A buffer that no operation of the named stretches writes keeps its contents over them. -/
syntax "not_written" ident* : tactic
macro_rules
  | `(tactic| not_written $[$ops:ident]*) => `(tactic| (
    refine StableHlo.after_of_forall_not_mem _ _ (List.forall_iff_forall_mem.mp ?_)
    simp only [$[$ops:ident],*, List.cons_append, List.nil_append, List.Forall, StableHlo.nullary_writes, StableHlo.unary_writes,
      StableHlo.binary_writes, StableHlo.ternary_writes, StableHlo.reshape_writes, Finset.mem_singleton]
    repeat' apply And.intro
    all_goals exact StableHlo.devRef_ne_of_ne (by decide)))

/-- Contents moved to a typed reference's buffer type and back are the contents. -/
theorem ofBuf_toBuf {T : BufTy} (x : TRef sig T) (v : T.Contents (Elt F)) : x.ofBuf (x.toBuf v) = v := by
  obtain ⟨r, rfl, h1, h2⟩ := x
  rfl

/-! ## What a stretch leaves alone -/

theorem keepA_arg0 (W : Valuation τ sig (Elt F)) : StableHlo.after opsA W (Proc.devRef .tc main_arg0) = W (Proc.devRef .tc main_arg0) := by
  not_written opsA
theorem keepA_arg2 (W : Valuation τ sig (Elt F)) : StableHlo.after opsA W (Proc.devRef .tc main_arg2) = W (Proc.devRef .tc main_arg2) := by
  not_written opsA
theorem keepA_arg3 (W : Valuation τ sig (Elt F)) : StableHlo.after opsA W (Proc.devRef .tc main_arg3) = W (Proc.devRef .tc main_arg3) := by
  not_written opsA
theorem keepB_arg0 (W : Valuation τ sig (Elt F)) : StableHlo.after opsB W (Proc.devRef .tc main_arg0) = W (Proc.devRef .tc main_arg0) := by
  not_written opsB
theorem keepB_arg2 (W : Valuation τ sig (Elt F)) : StableHlo.after opsB W (Proc.devRef .tc main_arg2) = W (Proc.devRef .tc main_arg2) := by
  not_written opsB
theorem keepB_arg3 (W : Valuation τ sig (Elt F)) : StableHlo.after opsB W (Proc.devRef .tc main_arg3) = W (Proc.devRef .tc main_arg3) := by
  not_written opsB
theorem keepB_v3 (W : Valuation τ sig (Elt F)) : StableHlo.after opsB W (Proc.devRef .tc main_v3) = W (Proc.devRef .tc main_v3) := by
  not_written opsB
theorem keepB_v6 (W : Valuation τ sig (Elt F)) : StableHlo.after opsB W (Proc.devRef .tc main_v6) = W (Proc.devRef .tc main_v6) := by
  not_written opsB
theorem keepC_arg2 (W : Valuation τ sig (Elt F)) : StableHlo.after opsC W (Proc.devRef .tc main_arg2) = W (Proc.devRef .tc main_arg2) := by
  not_written opsC
theorem keepC_arg3 (W : Valuation τ sig (Elt F)) : StableHlo.after opsC W (Proc.devRef .tc main_arg3) = W (Proc.devRef .tc main_arg3) := by
  not_written opsC
theorem keepC_v3 (W : Valuation τ sig (Elt F)) : StableHlo.after opsC W (Proc.devRef .tc main_v3) = W (Proc.devRef .tc main_v3) := by
  not_written opsC
theorem keepC_v6 (W : Valuation τ sig (Elt F)) : StableHlo.after opsC W (Proc.devRef .tc main_v6) = W (Proc.devRef .tc main_v6) := by
  not_written opsC
theorem keepD_arg2 (W : Valuation τ sig (Elt F)) : StableHlo.after opsD W (Proc.devRef .tc main_arg2) = W (Proc.devRef .tc main_arg2) := by
  not_written opsD
theorem keepD_arg3 (W : Valuation τ sig (Elt F)) : StableHlo.after opsD W (Proc.devRef .tc main_arg3) = W (Proc.devRef .tc main_arg3) := by
  not_written opsD
theorem keepD_v3 (W : Valuation τ sig (Elt F)) : StableHlo.after opsD W (Proc.devRef .tc main_v3) = W (Proc.devRef .tc main_v3) := by
  not_written opsD

section Boundaries

variable (m : (ℓ : Loc nD τ sig) → Buf (Elt F) ℓ) (c : Dev nD)

/-- The buffer contents at the launch, and after each stretch. -/
abbrev W0 : Valuation τ sig (Elt F) := launchContents m c
abbrev WA : Valuation τ sig (Elt F) := StableHlo.after opsA (W0 m c)
abbrev WB : Valuation τ sig (Elt F) := StableHlo.after opsB (WA m c)
abbrev WC : Valuation τ sig (Elt F) := StableHlo.after opsC (WB m c)
abbrev WD : Valuation τ sig (Elt F) := StableHlo.after opsD (WC m c)
abbrev WE : Valuation τ sig (Elt F) := StableHlo.after opsE (WD m c)
abbrev WG : Valuation τ sig (Elt F) := StableHlo.after opsG (WE m c)

/-! ## After the first stretch: the edge list with its self loops, the degree's sign test and inverse square root -/

theorem WA_arg0 : WA m c (Proc.devRef .tc main_arg0) = m ((c.tc : Thread nD τ).loc main_arg0) := keepA_arg0 _
theorem WA_arg2 : WA m c (Proc.devRef .tc main_arg2) = m ((c.tc : Thread nD τ).loc main_arg2) := keepA_arg2 _
theorem WA_arg3 : WA m c (Proc.devRef .tc main_arg3) = m ((c.tc : Thread nD τ).loc main_arg3) := keepA_arg3 _

theorem WA_v3 : WA m c (Proc.devRef .tc main_v3) = val_main_v3 (F := F) (m ((c.tc : Thread nD τ).loc main_arg1)) := by
  show StableHlo.after opsA (W0 m c) (Proc.devRef .tc main_v3) = _
  after_results
  rfl

theorem WA_v6 : WA m c (Proc.devRef .tc main_v6) = val_main_v6 (F := F) (m ((c.tc : Thread nD τ).loc main_arg1)) := by
  show StableHlo.after opsA (W0 m c) (Proc.devRef .tc main_v6) = _
  after_results
  rfl

set_option maxHeartbeats 2000000 in
theorem WA_v12 : WA m c (Proc.devRef .tc main_v12) = val_main_v12 (F := F) (m ((c.tc : Thread nD τ).loc main_arg1)) := by
  show StableHlo.after opsA (W0 m c) (Proc.devRef .tc main_v12) = _
  after_results
  rfl

set_option maxHeartbeats 2000000 in
theorem WA_v13 : WA m c (Proc.devRef .tc main_v13) = val_main_v13 (F := F) (m ((c.tc : Thread nD τ).loc main_arg1)) := by
  show StableHlo.after opsA (W0 m c) (Proc.devRef .tc main_v13) = _
  after_results
  rfl

theorem WA_cst_2 : WA m c (Proc.devRef .tc main_cst_2) = val_main_cst_2 (F := F) := by
  show StableHlo.after opsA (W0 m c) (Proc.devRef .tc main_cst_2) = _
  after_results
  rfl

/-! ## After the select that zeroes the weight of an isolated node -/

theorem WB_arg0 : WB m c (Proc.devRef .tc main_arg0) = m ((c.tc : Thread nD τ).loc main_arg0) := (keepB_arg0 _).trans (WA_arg0 m c)
theorem WB_arg2 : WB m c (Proc.devRef .tc main_arg2) = m ((c.tc : Thread nD τ).loc main_arg2) := (keepB_arg2 _).trans (WA_arg2 m c)
theorem WB_arg3 : WB m c (Proc.devRef .tc main_arg3) = m ((c.tc : Thread nD τ).loc main_arg3) := (keepB_arg3 _).trans (WA_arg3 m c)
theorem WB_v3 : WB m c (Proc.devRef .tc main_v3) = val_main_v3 (F := F) (m ((c.tc : Thread nD τ).loc main_arg1)) := (keepB_v3 _).trans (WA_v3 m c)
theorem WB_v6 : WB m c (Proc.devRef .tc main_v6) = val_main_v6 (F := F) (m ((c.tc : Thread nD τ).loc main_arg1)) := (keepB_v6 _).trans (WA_v6 m c)

theorem WB_v14 : WB m c (Proc.devRef .tc main_v14) = val_main_v14 (F := F) (m ((c.tc : Thread nD τ).loc main_arg1)) := by
  have h12 := WA_v12 m c
  have h13 := WA_v13 m c
  have h2 := WA_cst_2 m c
  show StableHlo.after opsB (WA m c) (Proc.devRef .tc main_v14) = _
  generalize WA m c = Wv at h12 h13 h2 ⊢
  after_results
  simp only [TRef.ofBuf, TRef.toBuf, cast_eq]
  rw [h12, h13, h2]
  rfl

/-! ## After the weights and the first hop's gather -/

theorem WC_arg2 : WC m c (Proc.devRef .tc main_arg2) = m ((c.tc : Thread nD τ).loc main_arg2) := (keepC_arg2 _).trans (WB_arg2 m c)
theorem WC_arg3 : WC m c (Proc.devRef .tc main_arg3) = m ((c.tc : Thread nD τ).loc main_arg3) := (keepC_arg3 _).trans (WB_arg3 m c)
theorem WC_v3 : WC m c (Proc.devRef .tc main_v3) = val_main_v3 (F := F) (m ((c.tc : Thread nD τ).loc main_arg1)) := (keepC_v3 _).trans (WB_v3 m c)
theorem WC_v6 : WC m c (Proc.devRef .tc main_v6) = val_main_v6 (F := F) (m ((c.tc : Thread nD τ).loc main_arg1)) := (keepC_v6 _).trans (WB_v6 m c)

set_option maxHeartbeats 4000000 in
theorem WC_v29 : WC m c (Proc.devRef .tc main_v29) = val_main_v29 (F := F) (m ((c.tc : Thread nD τ).loc main_arg1)) := by
  have h3 := WB_v3 m c
  have h6 := WB_v6 m c
  have h14 := WB_v14 m c
  show StableHlo.after opsC (WB m c) (Proc.devRef .tc main_v29) = _
  generalize WB m c = Wv at h3 h6 h14 ⊢
  after_results_simp
  rw [h3, h6, h14]
  rfl

set_option maxHeartbeats 4000000 in
theorem WC_v30 : WC m c (Proc.devRef .tc main_v30) = val_main_v30 (F := F) (m ((c.tc : Thread nD τ).loc main_arg1)) := by
  have h3 := WB_v3 m c
  have h6 := WB_v6 m c
  have h14 := WB_v14 m c
  show StableHlo.after opsC (WB m c) (Proc.devRef .tc main_v30) = _
  generalize WB m c = Wv at h3 h6 h14 ⊢
  after_results_simp
  rw [h3, h6, h14]
  rfl

set_option maxHeartbeats 4000000 in
theorem WC_v37 : WC m c (Proc.devRef .tc main_v37) = val_main_v37 (F := F) (m ((c.tc : Thread nD τ).loc main_arg0)) (m ((c.tc : Thread nD τ).loc main_arg1)) := by
  have h0 := WB_arg0 m c
  have h6 := WB_v6 m c
  show StableHlo.after opsC (WB m c) (Proc.devRef .tc main_v37) = _
  generalize WB m c = Wv at h0 h6 ⊢
  after_results_simp
  rw [h0, h6]
  rfl

/-! ## After the first hop's scatter-add and the second hop's gather -/

theorem WD_arg2 : WD m c (Proc.devRef .tc main_arg2) = m ((c.tc : Thread nD τ).loc main_arg2) := (keepD_arg2 _).trans (WC_arg2 m c)
theorem WD_arg3 : WD m c (Proc.devRef .tc main_arg3) = m ((c.tc : Thread nD τ).loc main_arg3) := (keepD_arg3 _).trans (WC_arg3 m c)
theorem WD_v3 : WD m c (Proc.devRef .tc main_v3) = val_main_v3 (F := F) (m ((c.tc : Thread nD τ).loc main_arg1)) := (keepD_v3 _).trans (WC_v3 m c)

set_option maxHeartbeats 4000000 in
theorem WD_v43 : WD m c (Proc.devRef .tc main_v43) = val_main_v43 (F := F) (m ((c.tc : Thread nD τ).loc main_arg1)) := by
  have h29 := WC_v29 m c
  show StableHlo.after opsD (WC m c) (Proc.devRef .tc main_v43) = _
  generalize WC m c = Wv at h29 ⊢
  after_results_simp
  rw [h29]
  rfl

set_option maxHeartbeats 4000000 in
theorem WD_v50 : WD m c (Proc.devRef .tc main_v50) = val_main_v50 (F := F) (m ((c.tc : Thread nD τ).loc main_arg0)) (m ((c.tc : Thread nD τ).loc main_arg1)) := by
  have h30 := WC_v30 m c
  have h37 := WC_v37 m c
  have h3 := WC_v3 m c
  have h6 := WC_v6 m c
  show StableHlo.after opsD (WC m c) (Proc.devRef .tc main_v50) = _
  generalize WC m c = Wv at h30 h37 h3 h6 ⊢
  after_results_simp
  rw [h30, h37, h3, h6]
  unfold val_main_v50 val_main_v42 val_main_v49 val_main_v48 val_main_v45 val_main_v47 val_main_v44 val_main_v46 val_main_c_9 val_main_c_10 val_main_v41 val_main_v40 val_main_cst_8 val_main_v39 val_main_v38
  rfl

/-! ## After the second hop's scatter-add and the linear layer -/

set_option maxHeartbeats 4000000 in
theorem WE_v59 : WE m c (Proc.devRef .tc main_v59) = val_main_v59 (F := F) (m ((c.tc : Thread nD τ).loc main_arg0)) (m ((c.tc : Thread nD τ).loc main_arg1)) (m ((c.tc : Thread nD τ).loc main_arg2)) (m ((c.tc : Thread nD τ).loc main_arg3)) := by
  have h43 := WD_v43 m c
  have h50 := WD_v50 m c
  have h3 := WD_v3 m c
  have h2 := WD_arg2 m c
  have h3' := WD_arg3 m c
  show StableHlo.after opsE (WD m c) (Proc.devRef .tc main_v59) = _
  generalize WD m c = Wv at h43 h50 h3 h2 h3' ⊢
  after_results_simp
  rw [h43, h50, h3, h2, h3']
  unfold val_main_v59 val_main_v56 val_main_v58 val_main_v57 val_main_v55 val_main_v53 val_main_cst_11 val_main_v54 val_main_v52 val_main_v51
  rfl

/-! ## After the log-softmax: the result -/

set_option maxHeartbeats 4000000 in
theorem WG_v60 : WG m c (Proc.devRef .tc main_v60) = val_main_v60 (F := F) (m ((c.tc : Thread nD τ).loc main_arg0)) (m ((c.tc : Thread nD τ).loc main_arg1)) (m ((c.tc : Thread nD τ).loc main_arg2)) (m ((c.tc : Thread nD τ).loc main_arg3)) := by
  have h59 := WE_v59 m c
  show StableHlo.after opsG (WE m c) (Proc.devRef .tc main_v60) = _
  generalize WE m c = Wv at h59 ⊢
  after_results_simp
  simp only [ofBuf_toBuf]
  simp only [TRef.ofBuf, TRef.toBuf, cast_eq]
  rw [h59]
  unfold val_main_v60 val_main_call1_v10 val_main_call1_v9 val_main_call1_v8 val_main_call1_v7 val_main_call1_cst_1 val_main_call1_v6 val_main_call1_v5 val_main_call1_v4 val_main_call1_v3 val_main_call1_v2 val_main_call1_v1 val_main_call1_cst_0 val_main_call1_v0 val_main_call1_cst
  rfl

/-- The result buffer after all 91 operations holds the reference's last stage of the four arguments. -/
theorem result_eq : StableHlo.after ops (launchContents m c) (Proc.devRef .tc main_v60)
    = val_main_v60 (F := F) (m ((c.tc : Thread nD τ).loc main_arg0)) (m ((c.tc : Thread nD τ).loc main_arg1)) (m ((c.tc : Thread nD τ).loc main_arg2)) (m ((c.tc : Thread nD τ).loc main_arg3)) := by
  show StableHlo.after (opsA ++ opsB ++ opsC ++ opsD ++ opsE ++ opsG) (W0 m c) _ = _
  rw [after_two, after_two, after_two, after_two, after_two]
  exact WG_v60 m c

/-- No operation writes an argument. -/
theorem arg0_kept : StableHlo.after ops (launchContents m c) (Proc.devRef .tc main_arg0) = m ((c.tc : Thread nD τ).loc main_arg0) := by
  show StableHlo.after ops (launchContents m c) (Proc.devRef .tc main_arg0) = launchContents m c (Proc.devRef .tc main_arg0)
  not_written ops opsA opsB opsC opsD opsE opsG
theorem arg1_kept : StableHlo.after ops (launchContents m c) (Proc.devRef .tc main_arg1) = m ((c.tc : Thread nD τ).loc main_arg1) := by
  show StableHlo.after ops (launchContents m c) (Proc.devRef .tc main_arg1) = launchContents m c (Proc.devRef .tc main_arg1)
  not_written ops opsA opsB opsC opsD opsE opsG
theorem arg2_kept : StableHlo.after ops (launchContents m c) (Proc.devRef .tc main_arg2) = m ((c.tc : Thread nD τ).loc main_arg2) := by
  show StableHlo.after ops (launchContents m c) (Proc.devRef .tc main_arg2) = launchContents m c (Proc.devRef .tc main_arg2)
  not_written ops opsA opsB opsC opsD opsE opsG
theorem arg3_kept : StableHlo.after ops (launchContents m c) (Proc.devRef .tc main_arg3) = m ((c.tc : Thread nD τ).loc main_arg3) := by
  show StableHlo.after ops (launchContents m c) (Proc.devRef .tc main_arg3) = launchContents m c (Proc.devRef .tc main_arg3)
  not_written ops opsA opsB opsC opsD opsE opsG

end Boundaries

/-! ## The run -/

/-- On every device, for any float values, from any memory with zero counters: every weakly fair execution of @main
    terminates with the result at the reference's last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v60) = val_main_v60 (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v60).trans (result_eq m c),
      (h c main_arg0).trans (arg0_kept m c),
      (h c main_arg1).trans (arg1_kept m c),
      (h c main_arg2).trans (arg2_kept m c),
      (h c main_arg3).trans (arg3_kept m c)⟩)
    (run_seq scopedRefs_eq scopedSems_eq defs main (fun _ => ops) main_eq (fun _ => ops_sub) m ρ)

end Cert.ReferenceIdeal.RunSteps

end
-- ==== Proof.Spec.lean ====
/-
  The two whole-array functions the kernels compute, index by index on the extended reals.

  `scaleRows x s`: row `r` of a rank-2 array multiplied by the weight `s r` of that row (one hop's per-edge reweighting).

  `dense x W b`: row `r` of `x · W + b` (64 terms per entry), then the row's log-softmax over its 40 entries:
  `z c - M - log (∑ k, exp (z k - M))` with `M` the row's maximum, taken as a fold of `max` from `-∞`.
-/
import Idealize.ShloMosaic.Lib.ValueIdx
import Idealize.ShloMosaic.PureOps.Ideal

noncomputable section

namespace Cert.Spec

open Idealize.ShloMosaic Idealize.ShloMosaic.ValueIdx

/-- Row `r` of `x` times the row's weight `s r`. -/
def scaleRows {n d : ℕ} (x : (⟨2, ![n, d]⟩ : Shape).Idx → EReal) (s : Fin n → EReal) :
    (⟨2, ![n, d]⟩ : Shape).Idx → EReal :=
  fun i => x i * s (i 0)

theorem scaleRows_apply {n d : ℕ} (x : (⟨2, ![n, d]⟩ : Shape).Idx → EReal) (s : Fin n → EReal) (r : Fin n) (q : Fin d) :
    scaleRows x s (ix2 r q) = x (ix2 r q) * s r := rfl

/-- Entry `(r, c)` of `x · W + b`: the 64 products of row `r` of `x` with column `c` of `W`, summed, plus `b c`. -/
def affine {n : ℕ} (x : (⟨2, ![n, 64]⟩ : Shape).Idx → EReal) (W : (⟨2, ![64, 40]⟩ : Shape).Idx → EReal)
    (b : Fin 40 → EReal) (r : Fin n) (c : Fin 40) : EReal :=
  (∑ k : Fin 64, x (ix2 r k) * W (ix2 k c)) + b c

/-- The maximum of a row's 40 entries, folded from `-∞`. -/
def rowMax (z : Fin 40 → EReal) : EReal := (Finset.univ : Finset (Fin 40)).fold max ⊥ z

/-- The log-softmax of a row of 40 entries, at entry `c`. -/
def logSoftmax (z : Fin 40 → EReal) (c : Fin 40) : EReal :=
  (z c - rowMax z) - Ideal.log (∑ k : Fin 40, Ideal.exp (z k - rowMax z))

/-- The linear layer followed by the row-wise log-softmax. -/
def dense {n : ℕ} (x : (⟨2, ![n, 64]⟩ : Shape).Idx → EReal) (W : (⟨2, ![64, 40]⟩ : Shape).Idx → EReal)
    (b : Fin 40 → EReal) : (⟨2, ![n, 40]⟩ : Shape).Idx → EReal :=
  fun i => logSoftmax (affine x W b (i 0)) (i 1)

theorem dense_apply {n : ℕ} (x : (⟨2, ![n, 64]⟩ : Shape).Idx → EReal) (W : (⟨2, ![64, 40]⟩ : Shape).Idx → EReal)
    (b : Fin 40 → EReal) (r : Fin n) (c : Fin 40) : dense x W b (ix2 r c) = logSoftmax (affine x W b r) c := rfl

/-- The entries of the linear layer depend on `x` only through the row read. -/
theorem affine_congr {n n' : ℕ} (x : (⟨2, ![n, 64]⟩ : Shape).Idx → EReal) (x' : (⟨2, ![n', 64]⟩ : Shape).Idx → EReal)
    (W : (⟨2, ![64, 40]⟩ : Shape).Idx → EReal) (b : Fin 40 → EReal) (r : Fin n) (r' : Fin n')
    (h : ∀ k : Fin 64, x (ix2 r k) = x' (ix2 r' k)) : affine x W b r = affine x' W b r' := by
  funext c
  unfold affine
  exact congrArg (· + b c) (Finset.sum_congr rfl fun k _ => by rw [h k])

/-- `-∞`, as the float word `0xFF800000` reads at the ideal values. -/
theorem ofBits_neg_inf : Ideal.ofBits .f32 0xFF800000#32 = (⊥ : EReal) := by
  simp [Ideal.ofBits, Ideal.ieee]

end Cert.Spec

end
-- ==== Proof.LibColumns.lean ====
/-
  Layout operations of the "keepdims" kind read at an index, and the index a one-axis reduction sums over.

  A row-wise reduction `[a, b] → [a]` that keeps its axis is printed as the reduction, a cast of the `[a]` result to the
  column `[a, 1]`, and a broadcast of that column back over `[a, b]`. Each lemma reads one of these at an index given by
  its coordinates: the column at `(r, ·)` is the vector at `r`; the broadcast at `(r, c)` is the column at `r`; and the
  indices a reduction along axis 1 (or axis 0) sums over, for the kept coordinate `r`, are `(r, k)` (or `(k, r)`).
-/
import Idealize.ShloMosaic.Lib.Pipeline.Value
import Idealize.ShloMosaic.Lib.ValueLayout
import Idealize.ShloMosaic.PureOps.Ideal.Laws

noncomputable section

namespace Cert.LibColumns

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column's entry of row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Reducing axis 1 of `[a, b]`: the kept coordinate `r` with the reduced coordinate `k` put back is `(r, k)`. -/
theorem lift_axis1 {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Reducing axis 0 of `[a, b]`: the kept coordinate `c` with the reduced coordinate `k` put back is `(k, c)`. -/
theorem lift_axis0 {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- A float sum along axis 1 of `[a, b]`, at the ideal values: at `r` it is the sum over the row's `b` entries. -/
theorem rowSum_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (r : Fin a) : multiReduction .add [1] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_axis1 h r k)

/-- A float sum along axis 0 of `[a, b]`, at the ideal values: at `c` it is the sum over the column's `a` entries. -/
theorem colSum_apply {a b : ℕ} {φ : FTy} (src : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (c : Fin b) : multiReduction .add [0] ⟨1, ![b]⟩ src acc h hφ hacc (ix1 c) = ∑ k : Fin a, src (ix2 k c) := by
  refine (Ideal.multiReduction_add_single src acc h hφ hacc (ix1 c)).trans ?_
  exact Finset.sum_congr rfl fun k _ => congrArg src (lift_axis0 h c k)

/-- A float maximum along axis 1 of `[a, b]`, at the ideal values: at `r` it is the fold of `max`, from the accumulator's
    value, over the row's `b` entries. -/
theorem rowMax_apply {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (r : Fin a) : multiReduction .maximumf [1] ⟨1, ![a]⟩ src acc h hφ hacc (ix1 r)
      = (Finset.univ : Finset (Fin b)).fold max (Ideal.ofBits φ acc) fun k => src (ix2 r k) := by
  refine (Ideal.multiReduction_maximumf_single src acc h hφ hacc (ix1 r)).trans ?_
  have hf : (src ∘ h.lift (ix1 r)) = fun k : Fin b => src (ix2 r k) := funext fun k => congrArg src (lift_axis1 h r k)
  exact congrArg (fun f => Finset.fold max (Ideal.ofBits φ acc) f (Finset.univ : Finset (Fin b))) hf

end Cert.LibColumns

end
-- ==== Proof.RefReads.lean ====
/-
  The reference's stages read as the specification's whole-array functions, at the ideal values.

  A hop's reweighting stage multiplies the gathered rows by the per-edge weights, the weights first broadcast to a
  column `[n, 1]` and the column over `[n, 64]`: at `(r, q)` it is `w r * x (r, q)`, the specification's
  `x (r, q) * w r` by commutativity of the product on the extended reals.

  The last stage is the linear layer followed by the row-wise log-softmax: the maximum of a row folded from `-∞`
  (and once more compared with `-∞`, which changes nothing), the shifted entries, the sum of their exponentials
  from the zero word, its logarithm, and the difference.
-/
import proofs.«138171_j6700148982288_1_alg».proof.Proof.RefRead
import proofs.«138171_j6700148982288_1_alg».proof.Proof.Spec
import proofs.«138171_j6700148982288_1_alg».proof.Proof.LibColumns
import Idealize.ShloMosaic.Lib.ValueIdx
import Idealize.ShloMosaic.PureOps.Ideal
import Idealize.ShloMosaic.PureOps.Ideal.Laws
import Idealize.ShloMosaic.PureOps.Reduce

noncomputable section

namespace Cert.ReferenceIdeal.RefReads

open Idealize.ShloMosaic Idealize.ShloMosaic.ValueIdx Cert.ReferenceIdeal Cert.ReferenceIdeal.ReadP

/-! ## The reweighting stages -/

/-- The column of weights, then its broadcast over the 64 entries of a row, read at `(r, q)`: the weight of row `r`. -/
theorem idx_v30_v38 (r : Fin 1700000) (q : Fin 64) : idx_main_v30 (idx_main_v38 (ix2 r q)) = ix1 r :=
  funext fun a => Fin.ext (by match a with | ⟨0, _⟩ => rfl)

/-- The same for the second hop's column and broadcast. -/
theorem idx_v43_v51 (r : Fin 1700000) (q : Fin 64) : idx_main_v43 (idx_main_v51 (ix2 r q)) = ix1 r :=
  funext fun a => Fin.ext (by match a with | ⟨0, _⟩ => rfl)

/-- The first hop's reweighted rows: the gathered rows scaled by the per-edge weights. -/
theorem v39_eq (x0 : (⟨S100000x64, .f32⟩ : BufTy).Contents (Elt Ideal)) (x1 : (⟨S2x1600000, .i32⟩ : BufTy).Contents (Elt Ideal)) :
    val_main_v39 (F := Ideal) x0 x1 = Cert.Spec.scaleRows (n := 1700000) (d := 64) (val_main_v37 (F := Ideal) x0 x1) (fun r => val_main_v29 (F := Ideal) x1 (ix1 r)) := by
  funext i
  obtain ⟨r, q, rfl⟩ : ∃ (r : Fin 1700000) (q : Fin 64), i = ix2 r q := ⟨i 0, i 1, eq_ix2 i⟩
  rw [Cert.Spec.scaleRows_apply, val_main_v39_apply, val_main_v38_apply, val_main_v30_apply, idx_v30_v38,
    Ideal.mulf_def, mul_comm]

/-- The second hop's reweighted rows: the rows gathered from the first hop's result scaled by the same weights. -/
theorem v52_eq (x0 : (⟨S100000x64, .f32⟩ : BufTy).Contents (Elt Ideal)) (x1 : (⟨S2x1600000, .i32⟩ : BufTy).Contents (Elt Ideal)) :
    val_main_v52 (F := Ideal) x0 x1 = Cert.Spec.scaleRows (n := 1700000) (d := 64) (val_main_v50 (F := Ideal) x0 x1) (fun r => val_main_v29 (F := Ideal) x1 (ix1 r)) := by
  funext i
  obtain ⟨r, q, rfl⟩ : ∃ (r : Fin 1700000) (q : Fin 64), i = ix2 r q := ⟨i 0, i 1, eq_ix2 i⟩
  rw [Cert.Spec.scaleRows_apply, val_main_v52_apply, val_main_v51_apply, val_main_v43_apply, idx_v43_v51,
    Ideal.mulf_def, mul_comm]

/-! ## The linear layer and the log-softmax -/

/-- The left operand of the contraction at `(r, c)`, term `k`: entry `(r, k)`. -/
theorem lidx_v56 (r : Fin 100000) (c : Fin 40) (k : Fin 64) : lidx_main_v56 (ix2 r c) k = ix2 r k :=
  funext fun a => Fin.ext (by match a with | ⟨0, _⟩ => rfl | ⟨1, _⟩ => rfl)

/-- The right operand of the contraction at `(r, c)`, term `k`: entry `(k, c)`. -/
theorem ridx_v56 (r : Fin 100000) (c : Fin 40) (k : Fin 64) : ridx_main_v56 (ix2 r c) k = ix2 k c :=
  funext fun a => Fin.ext (by match a with | ⟨0, _⟩ => rfl | ⟨1, _⟩ => rfl)

/-- The bias as a row `[1, 40]`, then over the rows, read at `(r, c)`: entry `c`. -/
theorem idx_v57_v58 (r : Fin 100000) (c : Fin 40) : idx_main_v57 (idx_main_v58 (ix2 r c)) = ix1 c :=
  funext fun a => Fin.ext (by match a with | ⟨0, _⟩ => rfl)

/-- The row maxima as a column, then over the 40 entries, read at `(r, c)`: the maximum of row `r`. -/
theorem idx_c3_c4 (r : Fin 100000) (c : Fin 40) : idx_main_call1_v3 (idx_main_call1_v4 (ix2 r c)) = ix1 r :=
  funext fun a => Fin.ext (by match a with | ⟨0, _⟩ => rfl)

/-- The row sums as a column, then over the 40 entries, read at `(r, c)`: the sum of row `r`. -/
theorem idx_c8_c10 (r : Fin 100000) (c : Fin 40) : idx_main_call1_v8 (idx_main_call1_v10 (ix2 r c)) = ix1 r :=
  funext fun a => Fin.ext (by match a with | ⟨0, _⟩ => rfl)

/-- The row sum at `r`, term `k`: entry `(r, k)`. -/
theorem idx_c7 (r : Fin 100000) (k : Fin 40) : idx_main_call1_v7 (ix1 r) k = ix2 r k :=
  funext fun a => Fin.ext (by match a with | ⟨0, _⟩ => rfl | ⟨1, _⟩ => rfl)

section Dense

variable (x0 : (⟨S100000x64, .f32⟩ : BufTy).Contents (Elt Ideal)) (x1 : (⟨S2x1600000, .i32⟩ : BufTy).Contents (Elt Ideal))
  (x2 : (⟨S64x40, .f32⟩ : BufTy).Contents (Elt Ideal)) (x3 : (⟨S40, .f32⟩ : BufTy).Contents (Elt Ideal))

/-- The linear layer's result at `(r, c)`: 64 products summed, plus the bias. -/
theorem v59_apply (r : Fin 100000) (c : Fin 40) :
    val_main_v59 (F := Ideal) x0 x1 x2 x3 (ix2 r c)
      = Cert.Spec.affine (n := 100000) (val_main_v55 (F := Ideal) x0 x1) x2 (fun q => x3 (ix1 q)) r c := by
  rw [val_main_v59_apply, val_main_v56_apply, val_main_v58_apply, val_main_v57_apply, idx_v57_v58, Ideal.addf_def]
  unfold Cert.Spec.affine
  refine congrArg (· + x3 (ix1 c)) (Finset.sum_congr rfl fun k _ => ?_)
  rw [lidx_v56, ridx_v56]

/-- From `-∞` the fold of `max` along a row of any `[100000, 40]` array: the row's maximum. -/
theorem rowMax_reduce (y : (⟨S100000x40, .f32⟩ : BufTy).Contents (Elt Ideal)) (h' : S100000x40.ReducesTo [1] S100000)
    (hu : 0 < S_.numel) (r : Fin 100000) :
    Host.reduce (FloatOps.maximumf (F := Ideal) (φ := .f32)) y (val_main_call1_cst (F := Ideal)) h' hu (ix1 r)
      = Cert.Spec.rowMax (fun k => y (ix2 r k)) := by
  have h : S100000x40.Reduces [1] S100000 := by decide
  rw [Host.reduce_eq_fold_single FloatOps.maximumf _ _ _ h _ (ix1 r)]
  have hi : ∀ j, val_main_call1_cst (F := Ideal) j = (⊥ : EReal) := fun _ => Cert.Spec.ofBits_neg_inf
  rw [hi]
  have hf : (y ∘ h.lift (ix1 r)) = fun k : Fin 40 => y (ix2 r k) :=
    funext fun k => congrArg y (Cert.LibColumns.lift_axis1 h r k)
  unfold Cert.Spec.rowMax
  exact congrArg (fun f => Finset.fold max (⊥ : EReal) f (Finset.univ : Finset (Fin 40))) hf

/-- The maximum along a row, folded from `-∞`: the specification's row maximum of the linear layer's row. -/
theorem c0_apply (r : Fin 100000) :
    val_main_call1_v0 (F := Ideal) x0 x1 x2 x3 (ix1 r)
      = Cert.Spec.rowMax (Cert.Spec.affine (n := 100000) (val_main_v55 (F := Ideal) x0 x1) x2 (fun q => x3 (ix1 q)) r) := by
  unfold val_main_call1_v0
  rw [rowMax_reduce]
  exact congrArg Cert.Spec.rowMax (funext fun k => v59_apply x0 x1 x2 x3 r k)

/-- The maximum compared once more with `-∞` is the maximum. -/
theorem c2_apply (r : Fin 100000) :
    val_main_call1_v2 (F := Ideal) x0 x1 x2 x3 (ix1 r)
      = Cert.Spec.rowMax (Cert.Spec.affine (n := 100000) (val_main_v55 (F := Ideal) x0 x1) x2 (fun q => x3 (ix1 q)) r) := by
  rw [val_main_call1_v2_apply, val_main_call1_v1_apply, val_main_call1_cst_0_apply, Ideal.ofBits_def,
    Cert.Spec.ofBits_neg_inf, Ideal.maximumf_def, c0_apply]
  exact max_eq_right bot_le

/-- The shifted entry at `(r, c)`: the linear layer's entry less the row's maximum. -/
theorem c5_apply (r : Fin 100000) (c : Fin 40) :
    val_main_call1_v5 (F := Ideal) x0 x1 x2 x3 (ix2 r c)
      = Cert.Spec.affine (n := 100000) (val_main_v55 (F := Ideal) x0 x1) x2 (fun q => x3 (ix1 q)) r c
        - Cert.Spec.rowMax (Cert.Spec.affine (n := 100000) (val_main_v55 (F := Ideal) x0 x1) x2 (fun q => x3 (ix1 q)) r) := by
  rw [val_main_call1_v5_apply, val_main_call1_v4_apply, val_main_call1_v3_apply, idx_c3_c4, c2_apply, v59_apply,
    Ideal.subf_def]

/-- The sum of the exponentials of a row's shifted entries, from the zero word. -/
theorem c7_apply (r : Fin 100000) :
    val_main_call1_v7 (F := Ideal) x0 x1 x2 x3 (ix1 r)
      = ∑ k : Fin 40, Ideal.exp
          (Cert.Spec.affine (n := 100000) (val_main_v55 (F := Ideal) x0 x1) x2 (fun q => x3 (ix1 q)) r k
            - Cert.Spec.rowMax (Cert.Spec.affine (n := 100000) (val_main_v55 (F := Ideal) x0 x1) x2 (fun q => x3 (ix1 q)) r)) := by
  rw [val_main_call1_v7_apply, val_main_call1_cst_1_apply, Ideal.ofBits_def, Ideal.ofBits_zero_f32, zero_add]
  refine Finset.sum_congr rfl fun k _ => ?_
  rw [idx_c7, val_main_call1_v6_apply, Ideal.hostUnary_exp_def, c5_apply]

/-- The linear layer followed by the row-wise log-softmax. -/
theorem v60_eq :
    val_main_v60 (F := Ideal) x0 x1 x2 x3 = Cert.Spec.dense (n := 100000) (val_main_v55 (F := Ideal) x0 x1) x2 (fun q => x3 (ix1 q)) := by
  funext i
  obtain ⟨r, c, rfl⟩ : ∃ (r : Fin 100000) (c : Fin 40), i = ix2 r c := ⟨i 0, i 1, eq_ix2 i⟩
  rw [Cert.Spec.dense_apply]
  unfold Cert.Spec.logSoftmax
  rw [val_main_v60_apply, val_main_call1_v10_apply, val_main_call1_v9_apply,
    val_main_call1_v8_apply, idx_c8_c10, c7_apply, c5_apply, Ideal.hostUnary_log_def, Ideal.subf_def]

end Dense

end Cert.ReferenceIdeal.RefReads

end
-- ==== Proof.Hop0.lean ====
/-
  One hop's reweighting region. Each of the 85 grid points takes a block of 20000 gathered rows (64 entries each) and
  the same 20000 rows of the one-column weight array, and writes back each row multiplied by its weight. Block `t` of
  what is written is block `t` of ONE function of the whole arrays, `Cert.Spec.scaleRows`; the 85 blocks tile the
  1,700,000 rows; so the region's output array ends holding `scaleRows` of the arrays the region was entered with.
  Proved for any entry contents; this module is the first hop's region.
-/
import proofs.«138171_j6700148982288_1_alg».proof.Proof.Gen.KernelIdeal.Frame
import proofs.«138171_j6700148982288_1_alg».proof.Proof.Spec
import proofs.«138171_j6700148982288_1_alg».proof.Proof.LibColumns
import Idealize.ShloMosaic.Lib.Pipeline.Value
import Idealize.ShloMosaic.Lib.ValueIdx

noncomputable section

namespace Cert.KernelIdeal.HopRegion0

open Idealize.ShloMosaic Idealize.ShloMosaic.TcCoe Idealize.ShloMosaic.ValueIdx Idealize.SL.Sem
open Idealize.ShloMosaic.Pipeline (Dat)
open Cert.KernelIdeal Cert.KernelIdeal.Gen

theorem zero2 : (![0, 0] : Fin 2 → Nat) = fun _ => 0 := funext fun a => by fin_cases a <;> rfl

/-- The first hop's body at `(p, q)`: the row's entry times the row's weight. -/
theorem pay0_apply (x0 : Vec Ideal S20000x64 .f32) (x1 : Vec Ideal S20000x1 .f32) (p : Fin 20000) (q : Fin 64) :
    k0_pay1 (F := Ideal) x0 x1 (ix2 p q) = x0 (ix2 p q) * x1 (ix2 p (0 : Fin 1)) := by
  unfold k0_pay1
  show shapeCast S20000x64 x0 _ (ix2 p q) * broadcastTo S20000x64 (shapeCast S20000x1 x1 _) _ (ix2 p q) = _
  rw [shapeCast_self, shapeCast_self]
  exact congrArg (x0 (ix2 p q) * ·) (Cert.LibColumns.broadcastTo_a1_ab_apply x1 _ p q)

variable (V : (c : Dev nD) → (b : Ref sig .tc) → Buf (Elt Ideal) ((c : Thread nD τ).loc b))

/-! ## The first hop's region -/

/-- The gathered rows and the weight column as the first hop's region finds them. -/
abbrev rows0 (c : Dev nD) : S1700000x64.Idx → EReal := V c main_v37
abbrev wcol0 (c : Dev nD) : S1700000x1.Idx → EReal := V c main_v30

/-- The rows the first hop's region is entered with, each scaled by its weight. -/
abbrev G0 (c : Dev nD) : S1700000x64.Idx → EReal :=
  Cert.Spec.scaleRows (n := 1700000) (d := 64) (rows0 V c) (fun r => wcol0 V c (ix2 r (0 : Fin 1)))

/-- Every window's block index at point `t` is `(t, 0)`. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the scaled rows. -/
theorem flushed0 (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero zero2]
  simp only [View.ld_unit_zero (S := S20000x64) zero2, View.ld_unit_zero (S := S20000x1) zero2]
  obtain ⟨e0, e1, e2, e3, e4, e5⟩ := idx0 t
  funext j
  obtain ⟨p, q, rfl⟩ : ∃ (p : Fin 20000) (q : Fin 64), j = ix2 p q := ⟨j 0, j 1, eq_ix2 j⟩
  show k0_pay1 (F := Ideal) (iblk0 V c 0 t) (iblk0 V c 1 t) (ix2 p q) = G0 V c (((cfg0.win 2).blk t).view.emb (ix2 p q))
  refine (pay0_apply (iblk0 V c 0 t) (iblk0 V c 1 t) p q).trans ?_
  show rows0 V c (((cfg0.win 0).blk t).view.emb (ix2 p q)) * wcol0 V c (((cfg0.win 1).blk t).view.emb (ix2 p (0 : Fin 1)))
    = rows0 V c (((cfg0.win 2).blk t).view.emb (ix2 p q)) * wcol0 V c (ix2 ((((cfg0.win 2).blk t).view.emb (ix2 p q)) 0) (0 : Fin 1))
  have h0 : ((cfg0.win 0).blk t).view.emb (ix2 p q) = ((cfg0.win 2).blk t).view.emb (ix2 p q) := by
    funext a; apply Fin.ext
    match a with
    | ⟨0, _⟩ => show win0_0.index t (0 : Fin 2) * 20000 + 1 * p.val = win0_2.index t (0 : Fin 2) * 20000 + 1 * p.val; omega
    | ⟨1, _⟩ => show win0_0.index t (1 : Fin 2) * 64 + 1 * q.val = win0_2.index t (1 : Fin 2) * 64 + 1 * q.val; omega
  have h1 : ((cfg0.win 1).blk t).view.emb (ix2 p (0 : Fin 1)) = ix2 ((((cfg0.win 2).blk t).view.emb (ix2 p q)) 0) (0 : Fin 1) := by
    funext a; apply Fin.ext
    match a with
    | ⟨0, _⟩ => show win0_1.index t (0 : Fin 2) * 20000 + 1 * p.val = win0_2.index t (0 : Fin 2) * 20000 + 1 * p.val; omega
    | ⟨1, _⟩ => show win0_1.index t (1 : Fin 2) * 1 + 1 * 0 = 0; omega
  exact congrArg₂ (· * ·) (congrArg (rows0 V c) h0) (congrArg (wcol0 V c) h1)

/-- An index of the array is in point `t`'s block iff each coordinate is in the block's range on its axis. -/
theorem mem_blk0 (t : Fin cfg0.N) (i : S1700000x64.Idx) :
    i ∈ ((cfg0.win 2).blk t).view.set ↔ ∀ a : Fin 2, win0_2.index t a * S20000x64.size a ≤ (i a).val ∧ (i a).val < win0_2.index t a * S20000x64.size a + S20000x64.size a := by
  show i ∈ ((View.whole main_v38).slice (win0_2.rect t)).set ↔ _
  rw [View.set_slice_whole, Rect.mem_set_unit]
  exact Iff.rfl

/-- Row `r` lies in the block of point `r / 20000`: the blocks tile the array. -/
theorem cover0 (i : S1700000x64.Idx) : ∃ t : Fin cfg0.N, (cfg0.win 2).flush t = true ∧ i ∈ ((cfg0.win 2).blk t).view.set := by
  have hi0 : (i 0).val < 1700000 := (i 0).isLt
  have hi1 : (i 1).val < 64 := (i 1).isLt
  have hN : cfg0.N = 85 := N_0
  obtain ⟨t, ht⟩ : ∃ t : Fin cfg0.N, t.val = (i 0).val / 20000 := ⟨⟨(i 0).val / 20000, by rw [hN]; omega⟩, rfl⟩
  refine ⟨t, flush0_2 t, ?_⟩
  obtain ⟨e0, e1, e2, e3, e4, e5⟩ := idx0 t
  rw [mem_blk0]
  intro a
  match a with
  | ⟨0, _⟩ => show win0_2.index t (0 : Fin 2) * 20000 ≤ (i 0).val ∧ (i 0).val < win0_2.index t (0 : Fin 2) * 20000 + 20000; omega
  | ⟨1, _⟩ => show win0_2.index t (1 : Fin 2) * 64 ≤ (i 1).val ∧ (i 1).val < win0_2.index t (1 : Fin 2) * 64 + 64; omega

/-- The first hop's output array after the region: the entry rows, each scaled by its weight. -/
theorem arr0 (c : Dev nD) : (dat0 V c).arrAt 2 cfg0.N = G0 V c :=
  (dat0 V c).arrAt_eq_of_cover 2 (G0 V c) (fun t _ => flushed0 V c t) cover0

end Cert.KernelIdeal.HopRegion0

end
-- ==== Proof.Hop1.lean ====
/-
  One hop's reweighting region. Each of the 85 grid points takes a block of 20000 gathered rows (64 entries each) and
  the same 20000 rows of the one-column weight array, and writes back each row multiplied by its weight. Block `t` of
  what is written is block `t` of ONE function of the whole arrays, `Cert.Spec.scaleRows`; the 85 blocks tile the
  1,700,000 rows; so the region's output array ends holding `scaleRows` of the arrays the region was entered with.
  Proved for any entry contents; this module is the second hop's region.
-/
import proofs.«138171_j6700148982288_1_alg».proof.Proof.Gen.KernelIdeal.Frame
import proofs.«138171_j6700148982288_1_alg».proof.Proof.Spec
import proofs.«138171_j6700148982288_1_alg».proof.Proof.LibColumns
import Idealize.ShloMosaic.Lib.Pipeline.Value
import Idealize.ShloMosaic.Lib.ValueIdx

noncomputable section

namespace Cert.KernelIdeal.HopRegion1

open Idealize.ShloMosaic Idealize.ShloMosaic.TcCoe Idealize.ShloMosaic.ValueIdx Idealize.SL.Sem
open Idealize.ShloMosaic.Pipeline (Dat)
open Cert.KernelIdeal Cert.KernelIdeal.Gen

theorem zero2 : (![0, 0] : Fin 2 → Nat) = fun _ => 0 := funext fun a => by fin_cases a <;> rfl

/-- The second hop's body at `(p, q)`: the row's entry times the row's weight. -/
theorem pay1_apply (x0 : Vec Ideal S20000x64 .f32) (x1 : Vec Ideal S20000x1 .f32) (p : Fin 20000) (q : Fin 64) :
    k1_pay1 (F := Ideal) x0 x1 (ix2 p q) = x0 (ix2 p q) * x1 (ix2 p (0 : Fin 1)) := by
  unfold k1_pay1
  show shapeCast S20000x64 x0 _ (ix2 p q) * broadcastTo S20000x64 (shapeCast S20000x1 x1 _) _ (ix2 p q) = _
  rw [shapeCast_self, shapeCast_self]
  exact congrArg (x0 (ix2 p q) * ·) (Cert.LibColumns.broadcastTo_a1_ab_apply x1 _ p q)

variable (V : (c : Dev nD) → (b : Ref sig .tc) → Buf (Elt Ideal) ((c : Thread nD τ).loc b))

/-! ## The second hop's region -/

/-- The gathered rows and the weight column as the second hop's region finds them. -/
abbrev rows1 (c : Dev nD) : S1700000x64.Idx → EReal := V c main_v48
abbrev wcol1 (c : Dev nD) : S1700000x1.Idx → EReal := V c main_v30

/-- The rows the second hop's region is entered with, each scaled by its weight. -/
abbrev G1 (c : Dev nD) : S1700000x64.Idx → EReal :=
  Cert.Spec.scaleRows (n := 1700000) (d := 64) (rows1 V c) (fun r => wcol1 V c (ix2 r (0 : Fin 1)))

/-- Every window's block index at point `t` is `(t, 0)`. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the scaled rows. -/
theorem flushed1 (c : Dev nD) (t : Fin cfg1.N) :
    (dat1 V c).flushed 2 t = ((cfg1.win 2).blk t).view.read (Elt Ideal) (G1 V c) := by
  show (cfg1.win 2).cut (grid1.coords t) ((dat1 V c).after 2 t) = _
  rw [after1_2]
  unfold out1_2
  rw [View.canon_unit_zero zero2]
  simp only [View.ld_unit_zero (S := S20000x64) zero2, View.ld_unit_zero (S := S20000x1) zero2]
  obtain ⟨e0, e1, e2, e3, e4, e5⟩ := idx1 t
  funext j
  obtain ⟨p, q, rfl⟩ : ∃ (p : Fin 20000) (q : Fin 64), j = ix2 p q := ⟨j 0, j 1, eq_ix2 j⟩
  show k1_pay1 (F := Ideal) (iblk1 V c 0 t) (iblk1 V c 1 t) (ix2 p q) = G1 V c (((cfg1.win 2).blk t).view.emb (ix2 p q))
  refine (pay1_apply (iblk1 V c 0 t) (iblk1 V c 1 t) p q).trans ?_
  show rows1 V c (((cfg1.win 0).blk t).view.emb (ix2 p q)) * wcol1 V c (((cfg1.win 1).blk t).view.emb (ix2 p (0 : Fin 1)))
    = rows1 V c (((cfg1.win 2).blk t).view.emb (ix2 p q)) * wcol1 V c (ix2 ((((cfg1.win 2).blk t).view.emb (ix2 p q)) 0) (0 : Fin 1))
  have h0 : ((cfg1.win 0).blk t).view.emb (ix2 p q) = ((cfg1.win 2).blk t).view.emb (ix2 p q) := by
    funext a; apply Fin.ext
    match a with
    | ⟨0, _⟩ => show win1_0.index t (0 : Fin 2) * 20000 + 1 * p.val = win1_2.index t (0 : Fin 2) * 20000 + 1 * p.val; omega
    | ⟨1, _⟩ => show win1_0.index t (1 : Fin 2) * 64 + 1 * q.val = win1_2.index t (1 : Fin 2) * 64 + 1 * q.val; omega
  have h1 : ((cfg1.win 1).blk t).view.emb (ix2 p (0 : Fin 1)) = ix2 ((((cfg1.win 2).blk t).view.emb (ix2 p q)) 0) (0 : Fin 1) := by
    funext a; apply Fin.ext
    match a with
    | ⟨0, _⟩ => show win1_1.index t (0 : Fin 2) * 20000 + 1 * p.val = win1_2.index t (0 : Fin 2) * 20000 + 1 * p.val; omega
    | ⟨1, _⟩ => show win1_1.index t (1 : Fin 2) * 1 + 1 * 0 = 0; omega
  exact congrArg₂ (· * ·) (congrArg (rows1 V c) h0) (congrArg (wcol1 V c) h1)

/-- An index of the array is in point `t`'s block iff each coordinate is in the block's range on its axis. -/
theorem mem_blk1 (t : Fin cfg1.N) (i : S1700000x64.Idx) :
    i ∈ ((cfg1.win 2).blk t).view.set ↔ ∀ a : Fin 2, win1_2.index t a * S20000x64.size a ≤ (i a).val ∧ (i a).val < win1_2.index t a * S20000x64.size a + S20000x64.size a := by
  show i ∈ ((View.whole main_v49).slice (win1_2.rect t)).set ↔ _
  rw [View.set_slice_whole, Rect.mem_set_unit]
  exact Iff.rfl

/-- Row `r` lies in the block of point `r / 20000`: the blocks tile the array. -/
theorem cover1 (i : S1700000x64.Idx) : ∃ t : Fin cfg1.N, (cfg1.win 2).flush t = true ∧ i ∈ ((cfg1.win 2).blk t).view.set := by
  have hi0 : (i 0).val < 1700000 := (i 0).isLt
  have hi1 : (i 1).val < 64 := (i 1).isLt
  have hN : cfg1.N = 85 := N_1
  obtain ⟨t, ht⟩ : ∃ t : Fin cfg1.N, t.val = (i 0).val / 20000 := ⟨⟨(i 0).val / 20000, by rw [hN]; omega⟩, rfl⟩
  refine ⟨t, flush1_2 t, ?_⟩
  obtain ⟨e0, e1, e2, e3, e4, e5⟩ := idx1 t
  rw [mem_blk1]
  intro a
  match a with
  | ⟨0, _⟩ => show win1_2.index t (0 : Fin 2) * 20000 ≤ (i 0).val ∧ (i 0).val < win1_2.index t (0 : Fin 2) * 20000 + 20000; omega
  | ⟨1, _⟩ => show win1_2.index t (1 : Fin 2) * 64 ≤ (i 1).val ∧ (i 1).val < win1_2.index t (1 : Fin 2) * 64 + 64; omega

/-- The second hop's output array after the region: the entry rows, each scaled by its weight. -/
theorem arr1 (c : Dev nD) : (dat1 V c).arrAt 2 cfg1.N = G1 V c :=
  (dat1 V c).arrAt_eq_of_cover 2 (G1 V c) (fun t _ => flushed1 V c t) cover1

end Cert.KernelIdeal.HopRegion1

end
-- ==== Proof.DenseRegion.lean ====
/-
  The third launch of the kernel (the dense layer): ten grid points, point `t` taking rows `t·10000 … t·10000+9999`
  of `x` against the whole weight matrix and the bias row, and writing the same rows of the result.

  First the body's arithmetic at an index of a block: the product into the zero accumulator is the 64-term sum of
  Spec's `affine`, the broadcast bias row adds `b c`, the row maximum is the fold of `max` from `-∞`, and the two
  keepdims columns (the maximum, the logarithm of the row's sum of exponentials) are read back at their row; together
  this is Spec's `logSoftmax` of the block's affine row. Then the blocks: point `t`'s block of `x` and of the result
  sit at rows `t·10000 + p`, the weights' and the bias's blocks are the whole arrays, every row `r` of the result is
  in the block of point `r / 10000`, so after all write-backs the result array is Spec's `dense` of the arrays the
  launch finds.
-/
import proofs.«138171_j6700148982288_1_alg».proof.Proof.Gen.KernelIdeal.Frame
import proofs.«138171_j6700148982288_1_alg».proof.Proof.Spec
import proofs.«138171_j6700148982288_1_alg».proof.Proof.LibColumns
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.DenseRegion

open Idealize.ShloMosaic Idealize.ShloMosaic.TcCoe Idealize.ShloMosaic.ValueIdx Idealize.SL.Sem Cert.KernelIdeal Cert.KernelIdeal.Gen
open Idealize.ShloMosaic.Pipeline (Dat)

/-! ## The product at an index -/

/-- Row axis of the left operand: the output's row. -/
theorem lhs_axis0 (i : S10000x40.Idx) (q : dot_S10000x64_S64x40_S10000x40_1_0_0_1_n_n.contr.Idx) :
    (dot_S10000x64_S64x40_S10000x40_1_0_0_1_n_n.lhsIdx i q 0).val = (i 0).val := by
  unfold DotDims.lhsIdx
  rw [dif_neg (show ¬(0 : Fin S10000x64.rank) ∈ dot_S10000x64_S64x40_S10000x40_1_0_0_1_n_n.lhsBatch by decide), dif_pos (show (0 : Fin S10000x64.rank) ∈ dot_S10000x64_S64x40_S10000x40_1_0_0_1_n_n.lhsNonContracting by decide)]
  rfl
/-- Column axis of the left operand: the contraction coordinate. -/
theorem lhs_axis1 (i : S10000x40.Idx) (q : dot_S10000x64_S64x40_S10000x40_1_0_0_1_n_n.contr.Idx) :
    (dot_S10000x64_S64x40_S10000x40_1_0_0_1_n_n.lhsIdx i q 1).val = (q ⟨0, by decide⟩).val :=
  dot_S10000x64_S64x40_S10000x40_1_0_0_1_n_n.lhsIdx_val_of_single rfl i q
/-- Row axis of the right operand: the contraction coordinate. -/
theorem rhs_axis0 (i : S10000x40.Idx) (q : dot_S10000x64_S64x40_S10000x40_1_0_0_1_n_n.contr.Idx) :
    (dot_S10000x64_S64x40_S10000x40_1_0_0_1_n_n.rhsIdx i q 0).val = (q ⟨0, by decide⟩).val :=
  dot_S10000x64_S64x40_S10000x40_1_0_0_1_n_n.rhsIdx_val_of_single rfl i q
/-- Column axis of the right operand: the output's column. -/
theorem rhs_axis1 (i : S10000x40.Idx) (q : dot_S10000x64_S64x40_S10000x40_1_0_0_1_n_n.contr.Idx) :
    (dot_S10000x64_S64x40_S10000x40_1_0_0_1_n_n.rhsIdx i q 1).val = (i 1).val := by
  unfold DotDims.rhsIdx
  rw [dif_neg (show ¬(1 : Fin S64x40.rank) ∈ dot_S10000x64_S64x40_S10000x40_1_0_0_1_n_n.rhsBatch by decide), dif_pos (show (1 : Fin S64x40.rank) ∈ dot_S10000x64_S64x40_S10000x40_1_0_0_1_n_n.rhsNonContracting by decide)]
  rfl

/-- The product of a `[10000, 64]` block with the `[64, 40]` weights into the zero accumulator, at `(p, q)`: the sum over
    the 64 contraction coordinates of row `p` of the left times column `q` of the right. -/
theorem product_apply {φ₁ φ₂ : FTy} (l : FVec Ideal S10000x64 φ₁) (r : FVec Ideal S64x40 φ₂) (p : Fin 10000) (q : Fin 40) :
    matmul dot_S10000x64_S64x40_S10000x40_1_0_0_1_n_n none l r (constant (F := Ideal) S10000x40 .f32 0x00000000#32) (ix2 p q)
      = ∑ k : Fin 64, l (ix2 p k) * r (ix2 k q) := by
  simp only [matmul]
  rw [Ideal.matmul_constant_zero_apply, ← Equiv.sum_comp (contrEquiv1 dot_S10000x64_S64x40_S10000x40_1_0_0_1_n_n 64 rfl rfl).symm]
  refine Finset.sum_congr rfl fun k _ => ?_
  have hk := contrEquiv1_symm_val dot_S10000x64_S64x40_S10000x40_1_0_0_1_n_n 64 rfl rfl k
  have el : dot_S10000x64_S64x40_S10000x40_1_0_0_1_n_n.lhsIdx (ix2 p q) ((contrEquiv1 dot_S10000x64_S64x40_S10000x40_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S10000x64_S64x40_S10000x40_1_0_0_1_n_n.rhsIdx (ix2 p q) ((contrEquiv1 dot_S10000x64_S64x40_S10000x40_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-! ## The body's arithmetic in three stages -/

/-- The linear layer as the body computes it: the block of `x` against the weights into the zero accumulator, plus the
    bias row broadcast over the block's rows. -/
def lin (x0 : Vec Ideal S10000x64 .f32) (x1 : Vec Ideal S64x40 .f32) (x2 : Vec Ideal S1x40 .f32) : FVec Ideal S10000x40 .f32 :=
  addf (matmul dot_S10000x64_S64x40_S10000x40_1_0_0_1_n_n none
      (truncf .bf16 (shapeCast S10000x64 x0 shapeCasts_S10000x64_S10000x64) bitsLt_bf16_f32) (truncf .bf16 x1 bitsLt_bf16_f32)
      (constant S10000x40 .f32 0x00000000#32))
    (broadcastTo S10000x40 (shapeCast S1x40 x2 shapeCasts_S1x40_S1x40) broadcasts_S1x40_S10000x40)

/-- Each row less its maximum (the keepdims column of row maxima broadcast back). -/
def shifted (z : FVec Ideal S10000x40 .f32) : FVec Ideal S10000x40 .f32 :=
  subf z (broadcastTo S10000x40
    (shapeCast S10000x1 (multiReduction .maximumf [1] S10000 z 0xFF800000#32 reduces_S10000x40_S10000 (.inl rfl) rfl) shapeCasts_S10000_S10000x1)
    broadcasts_S10000x1_S10000x40)

/-- Each row less the logarithm of its sum of exponentials (again a keepdims column broadcast back). -/
def normalized (y : FVec Ideal S10000x40 .f32) : FVec Ideal S10000x40 .f32 :=
  subf y (broadcastTo S10000x40
    (log (shapeCast S10000x1 (multiReduction .add [1] S10000 (exp y) 0x00000000#32 reduces_S10000x40_S10000 (.inl rfl) rfl) shapeCasts_S10000_S10000x1))
    broadcasts_S10000x1_S10000x40)

/-- The body's stored value is the three stages composed. -/
theorem pay_eq (x0 : Vec Ideal S10000x64 .f32) (x1 : Vec Ideal S64x40 .f32) (x2 : Vec Ideal S1x40 .f32) :
    k2_pay1 (F := Ideal) x0 x1 x2 = normalized (shifted (lin x0 x1 x2)) := rfl

/-- The linear stage at `(p, q)`: Spec's `affine` of the block, the weights and the bias row. -/
theorem lin_apply (x0 : Vec Ideal S10000x64 .f32) (x1 : Vec Ideal S64x40 .f32) (x2 : Vec Ideal S1x40 .f32) (p : Fin 10000) (q : Fin 40) :
    lin x0 x1 x2 (ix2 p q) = Cert.Spec.affine (n := 10000) x0 x1 (fun c => x2 (ix2 (0 : Fin 1) c)) p q := by
  unfold lin Cert.Spec.affine
  rw [addf_apply, product_apply, broadcastTo_1b_ab_apply, shapeCast_self, shapeCast_self]
  rfl

/-- The shifted stage at `(p, q)`: the entry less the fold of `max` from `-∞` over its row. -/
theorem shifted_apply (z : FVec Ideal S10000x40 .f32) (p : Fin 10000) (q : Fin 40) :
    shifted z (ix2 p q) = z (ix2 p q) - Cert.Spec.rowMax (fun c => z (ix2 p c)) := by
  unfold shifted Cert.Spec.rowMax
  rw [subf_apply, Cert.LibColumns.broadcastTo_a1_ab_apply, Cert.LibColumns.shapeCast_a_a1_apply]
  refine congrArg (z (ix2 p q) - ·) ?_
  refine (Cert.LibColumns.rowMax_apply z 0xFF800000#32 reduces_S10000x40_S10000 (.inl rfl) rfl p).trans ?_
  rw [Cert.Spec.ofBits_neg_inf]

/-- The normalized stage at `(p, q)`: the entry less the logarithm of the row's sum of exponentials. -/
theorem normalized_apply (y : FVec Ideal S10000x40 .f32) (p : Fin 10000) (q : Fin 40) :
    normalized y (ix2 p q) = y (ix2 p q) - Ideal.log (∑ k : Fin 40, Ideal.exp (y (ix2 p k))) := by
  unfold normalized
  rw [subf_apply, Cert.LibColumns.broadcastTo_a1_ab_apply]
  refine congrArg (y (ix2 p q) - ·) ?_
  show Ideal.log (shapeCast S10000x1 (multiReduction .add [1] S10000 (exp y) 0x00000000#32 reduces_S10000x40_S10000 (.inl rfl) rfl) shapeCasts_S10000_S10000x1 (ix2 p (0 : Fin 1))) = _
  rw [Cert.LibColumns.shapeCast_a_a1_apply]
  refine congrArg Ideal.log ?_
  exact Cert.LibColumns.rowSum_apply (exp y) 0x00000000#32 reduces_S10000x40_S10000 (.inl rfl) rfl p

/-- THE BODY'S STORED VALUE AT `(p, q)`: the log-softmax, at `q`, of row `p` of the block's linear layer. -/
theorem payload_apply (x0 : Vec Ideal S10000x64 .f32) (x1 : Vec Ideal S64x40 .f32) (x2 : Vec Ideal S1x40 .f32) (p : Fin 10000) (q : Fin 40) :
    k2_pay1 (F := Ideal) x0 x1 x2 (ix2 p q)
      = Cert.Spec.logSoftmax (Cert.Spec.affine (n := 10000) x0 x1 (fun c => x2 (ix2 (0 : Fin 1) c)) p) q := by
  have hz : (fun c : Fin 40 => lin x0 x1 x2 (ix2 p c)) = Cert.Spec.affine (n := 10000) x0 x1 (fun c => x2 (ix2 (0 : Fin 1) c)) p :=
    funext fun c => lin_apply x0 x1 x2 p c
  rw [pay_eq, normalized_apply, shifted_apply]
  unfold Cert.Spec.logSoftmax
  rw [← hz]
  refine congrArg (fun s => lin x0 x1 x2 (ix2 p q) - Cert.Spec.rowMax (fun c => lin x0 x1 x2 (ix2 p c)) - Ideal.log s) ?_
  exact Finset.sum_congr rfl fun k _ => by rw [shifted_apply]

/-! ## From a block to the array -/

/-- A block whose rows are rows `T·10000 + p` of an array `A0`, against the whole weights `A1` and bias row `A2`: the body's
    stored value at an index of the block is Spec's `dense` of the arrays at the array index of the same column `T·10000` rows
    further down. -/
theorem block_apply (A0 : S100000x64.Idx → EReal) (A1 : S64x40.Idx → EReal) (A2 : S1x40.Idx → EReal)
    (x0 : Vec Ideal S10000x64 .f32) (x1 : Vec Ideal S64x40 .f32) (x2 : Vec Ideal S1x40 .f32) (T : ℕ)
    (h0 : ∀ (p : Fin 10000) (k : Fin 64) (r : Fin 100000), r.val = T * 10000 + p.val → x0 (ix2 p k) = A0 (ix2 r k))
    (h1 : x1 = A1) (h2 : x2 = A2)
    (j : S10000x40.Idx) (i : S100000x40.Idx) (hi0 : (i 0).val = T * 10000 + (j 0).val) (hi1 : (i 1).val = (j 1).val) :
    k2_pay1 (F := Ideal) x0 x1 x2 j = Cert.Spec.dense (n := 100000) A0 A1 (fun q => A2 (ix2 (0 : Fin 1) q)) i := by
  obtain ⟨p, q, rfl⟩ : ∃ (p : Fin 10000) (q : Fin 40), j = ix2 p q := ⟨j 0, j 1, eq_ix2 j⟩
  obtain ⟨r, q', rfl⟩ : ∃ (r : Fin 100000) (q' : Fin 40), i = ix2 r q' := ⟨i 0, i 1, eq_ix2 i⟩
  have hq : q' = q := Fin.ext hi1
  subst hq h1 h2
  rw [payload_apply, Cert.Spec.dense_apply]
  exact congrArg (fun z => Cert.Spec.logSoftmax z q') (Cert.Spec.affine_congr x0 A0 x1 _ p r fun k => h0 p k r hi0)

theorem origin_eq : (![0, 0] : Fin 2 → Nat) = fun _ => 0 := funext fun a => by fin_cases a <;> rfl

/-- The printed index maps, decided over the ten grid points: the blocks of `x` and of the result are at block row `t`,
    column 0; the weights' and the bias row's blocks are at the origin. -/
theorem index_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- WHAT POINT `t` WRITES BACK is block `t` of Spec's `dense` of the arrays as the launch finds them. -/
theorem flushed_eq (c : Dev nD) (t : Fin cfg2.N) :
    (dat2 (F := Ideal) V c).flushed 3 t = ((cfg2.win 3).blk t).view.read (Elt Ideal)
      (Cert.Spec.dense (n := 100000) (V c main_v52) (V c main_arg2) (fun q => V c main_v53 (ix2 (0 : Fin 1) q))) := by
  show (cfg2.win 3).cut (grid2.coords t) ((dat2 V c).after 3 t) = _
  rw [after2_3]
  unfold out2_3
  rw [View.canon_unit_zero origin_eq]
  simp only [View.ld_unit_zero (S := S10000x64) origin_eq, View.ld_unit_zero (S := S64x40) origin_eq, View.ld_unit_zero (S := S1x40) origin_eq]
  obtain ⟨e00, e01, e10, e11, e20, e21, e30, e31⟩ := index_facts t
  funext j
  show k2_pay1 (F := Ideal) (iblk2 V c 0 t) (iblk2 V c 1 t) (iblk2 V c 2 t) j
    = Cert.Spec.dense (n := 100000) (V c main_v52) (V c main_arg2) (fun q => V c main_v53 (ix2 (0 : Fin 1) q)) (((cfg2.win 3).blk t).view.emb j)
  refine block_apply (V c main_v52) (V c main_arg2) (V c main_v53) _ _ _ t.val ?_ ?_ ?_ j _ ?_ ?_
  · intro p k r hr
    show V c main_v52 (((cfg2.win 0).blk t).view.emb (ix2 p k)) = V c main_v52 (ix2 r k)
    refine congrArg (V c main_v52) (funext fun a => Fin.ext ?_)
    match a with
    | ⟨0, _⟩ => show win2_0.index t (0 : Fin 2) * 10000 + 1 * p.val = r.val; omega
    | ⟨1, _⟩ => show win2_0.index t (1 : Fin 2) * 64 + 1 * k.val = k.val; omega
  · funext y
    show V c main_arg2 (((cfg2.win 1).blk t).view.emb y) = V c main_arg2 y
    refine congrArg (V c main_arg2) (funext fun a => Fin.ext ?_)
    match a with
    | ⟨0, _⟩ => show win2_1.index t (0 : Fin 2) * 64 + 1 * (y 0).val = (y 0).val; omega
    | ⟨1, _⟩ => show win2_1.index t (1 : Fin 2) * 40 + 1 * (y 1).val = (y 1).val; omega
  · funext y
    show V c main_v53 (((cfg2.win 2).blk t).view.emb y) = V c main_v53 y
    refine congrArg (V c main_v53) (funext fun a => Fin.ext ?_)
    match a with
    | ⟨0, _⟩ => show win2_2.index t (0 : Fin 2) * 1 + 1 * (y 0).val = (y 0).val; omega
    | ⟨1, _⟩ => show win2_2.index t (1 : Fin 2) * 40 + 1 * (y 1).val = (y 1).val; omega
  · show win2_3.index t (0 : Fin 2) * 10000 + 1 * (j 0).val = t.val * 10000 + (j 0).val; omega
  · show win2_3.index t (1 : Fin 2) * 40 + 1 * (j 1).val = (j 1).val; omega

/-- An index of the result array is in point `t`'s block iff each coordinate is in the block's range on its axis. -/
theorem mem_blk (t : Fin cfg2.N) (i : S100000x40.Idx) :
    i ∈ ((cfg2.win 3).blk t).view.set ↔ ∀ a : Fin 2, win2_3.index t a * S10000x40.size a ≤ (i a).val ∧ (i a).val < win2_3.index t a * S10000x40.size a + S10000x40.size a := by
  show i ∈ ((View.whole main_v54).slice (win2_3.rect t)).set ↔ _
  rw [View.set_slice_whole, Rect.mem_set_unit]
  exact Iff.rfl

/-- Every index of the result array is in some point's block: row `r` in the block of point `r / 10000`. -/
theorem cover (i : S100000x40.Idx) : ∃ t : Fin cfg2.N, (cfg2.win 3).flush t = true ∧ i ∈ ((cfg2.win 3).blk t).view.set := by
  have hi0 : (i 0).val < 100000 := (i 0).isLt
  have hi1 : (i 1).val < 40 := (i 1).isLt
  have hN : grid2.N = 10 := N_2
  let t : Fin cfg2.N := ⟨(i 0).val / 10000, by show (i 0).val / 10000 < grid2.N; omega⟩
  have ht : t.val = (i 0).val / 10000 := rfl
  obtain ⟨-, -, -, -, -, -, e30, e31⟩ := index_facts t
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 40 ≤ (i 1).val ∧ (i 1).val < win2_3.index t (1 : Fin 2) * 40 + 40; omega

/-- THE RESULT ARRAY after all ten write-backs: Spec's `dense` of the arrays the launch finds, whatever they hold. -/
theorem arr_eq (c : Dev nD) :
    (dat2 (F := Ideal) V c).arrAt 3 cfg2.N
      = Cert.Spec.dense (n := 100000) (V c main_v52) (V c main_arg2) (fun q => V c main_v53 (ix2 (0 : Fin 1) q)) :=
  (dat2 (F := Ideal) V c).arrAt_eq_of_cover 3 _ (fun t _ => flushed_eq V c t) cover

end Cert.KernelIdeal.DenseRegion

end
-- ==== Proof.KernelValue.lean ====
/-
  The kernel program's result as the reference's own stages.

  @main of the kernel program is five stretches of host operations around three regions. The buffer contents at each
  boundary are a fold from the launch memory; this module reads that fold one boundary at a time. The host operations
  are the reference's, operation for operation (the edge list with its self loops, the degree and its inverse square
  root, the per-edge weights, the gathers and scatter-adds of both hops), so each buffer a later item reads holds the
  reference's stage of the same meaning; a region's output holds `scaleRows` / `dense` of its entry arrays, which are
  the reference's product stage and its log-softmax stage read index by index. The last boundary's result array is
  therefore the reference's result stage of the four arguments.
-/
import proofs.«138171_j6700148982288_1_alg».proof.Proof.Gen.KernelIdeal.Frame
import proofs.«138171_j6700148982288_1_alg».proof.Proof.RefRead
import proofs.«138171_j6700148982288_1_alg».proof.Proof.RefReads
import proofs.«138171_j6700148982288_1_alg».proof.Proof.Hop0
import proofs.«138171_j6700148982288_1_alg».proof.Proof.Hop1
import proofs.«138171_j6700148982288_1_alg».proof.Proof.DenseRegion
import proofs.«138171_j6700148982288_1_alg».proof.Proof.LibColumns
import Idealize.ShloMosaic.Lib.StableHlo.Run
import Idealize.ShloMosaic.Lib.Pipeline.Value

noncomputable section

namespace Cert.KernelIdeal.Fold

open Idealize.ShloMosaic Idealize.ShloMosaic.TcCoe Idealize.ShloMosaic.ValueIdx Idealize.SL.Sem Idealize.ShloMosaic.StableHlo
open Cert.KernelIdeal Cert.KernelIdeal.Gen
open Cert.ReferenceIdeal.ReadP (val_main_v3 val_main_v6 val_main_v12 val_main_v13 val_main_cst_2 val_main_v14 val_main_v29
  val_main_v37 val_main_v39 val_main_v42 val_main_v50 val_main_v52 val_main_v55 val_main_v60)

/-- A buffer that no operation of a host stretch writes keeps its contents over the stretch. -/
macro "not_written" ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

section Glue

variable {F : FTy → Type} [FloatOps F]
variable (m : (ℓ : Loc nD τ sig) → Buf (Elt F) ℓ) (ρ : Dev nD → PrngReg) (c : Dev nD)

/-! ## After the first stretch: the edge list with its self loops, the degree's sign test and inverse square root -/

theorem W1_arg0 : W1 m ρ c (Proc.devRef .tc main_arg0) = m ((c : Thread nD τ).loc main_arg0) := by
  show StableHlo.after hostOps0 (W0 m ρ c) (Proc.devRef .tc main_arg0) = W0 m ρ c (Proc.devRef .tc main_arg0)
  not_written hostOps0

theorem W1_v3 : W1 m ρ c (Proc.devRef .tc main_v3) = val_main_v3 (F := F) (m ((c : Thread nD τ).loc main_arg1)) := by
  show StableHlo.after hostOps0 (W0 m ρ c) (Proc.devRef .tc main_v3) = _
  after_results
  rfl

theorem W1_v6 : W1 m ρ c (Proc.devRef .tc main_v6) = val_main_v6 (F := F) (m ((c : Thread nD τ).loc main_arg1)) := by
  show StableHlo.after hostOps0 (W0 m ρ c) (Proc.devRef .tc main_v6) = _
  after_results
  rfl

set_option maxHeartbeats 2000000 in
theorem W1_v12 : W1 m ρ c (Proc.devRef .tc main_v12) = val_main_v12 (F := F) (m ((c : Thread nD τ).loc main_arg1)) := by
  show StableHlo.after hostOps0 (W0 m ρ c) (Proc.devRef .tc main_v12) = _
  after_results
  rfl

set_option maxHeartbeats 2000000 in
theorem W1_v13 : W1 m ρ c (Proc.devRef .tc main_v13) = val_main_v13 (F := F) (m ((c : Thread nD τ).loc main_arg1)) := by
  show StableHlo.after hostOps0 (W0 m ρ c) (Proc.devRef .tc main_v13) = _
  after_results
  rfl

theorem W1_cst_2 : W1 m ρ c (Proc.devRef .tc main_cst_2) = val_main_cst_2 (F := F) := by
  show StableHlo.after hostOps0 (W0 m ρ c) (Proc.devRef .tc main_cst_2) = _
  after_results
  rfl

/-! ## After the select that zeroes the weight of an isolated node -/

theorem W2_arg0 : W2 m ρ c (Proc.devRef .tc main_arg0) = m ((c : Thread nD τ).loc main_arg0) := by
  refine Eq.trans ?_ (W1_arg0 m ρ c)
  show StableHlo.after hostOps0_1 (W1 m ρ c) (Proc.devRef .tc main_arg0) = W1 m ρ c (Proc.devRef .tc main_arg0)
  not_written hostOps0_1

theorem W2_v3 : W2 m ρ c (Proc.devRef .tc main_v3) = val_main_v3 (F := F) (m ((c : Thread nD τ).loc main_arg1)) := by
  refine Eq.trans ?_ (W1_v3 m ρ c)
  show StableHlo.after hostOps0_1 (W1 m ρ c) (Proc.devRef .tc main_v3) = W1 m ρ c (Proc.devRef .tc main_v3)
  not_written hostOps0_1

theorem W2_v6 : W2 m ρ c (Proc.devRef .tc main_v6) = val_main_v6 (F := F) (m ((c : Thread nD τ).loc main_arg1)) := by
  refine Eq.trans ?_ (W1_v6 m ρ c)
  show StableHlo.after hostOps0_1 (W1 m ρ c) (Proc.devRef .tc main_v6) = W1 m ρ c (Proc.devRef .tc main_v6)
  not_written hostOps0_1

theorem W2_v14 : W2 m ρ c (Proc.devRef .tc main_v14) = val_main_v14 (F := F) (m ((c : Thread nD τ).loc main_arg1)) := by
  have h12 := W1_v12 m ρ c
  have h13 := W1_v13 m ρ c
  have h2 := W1_cst_2 m ρ c
  show StableHlo.after hostOps0_1 (W1 m ρ c) (Proc.devRef .tc main_v14) = _
  generalize W1 m ρ c = Wv at h12 h13 h2 ⊢
  after_results
  simp only [TRef.ofBuf, TRef.toBuf, cast_eq]
  rw [h12, h13, h2]
  rfl

/-! ## At the first region's entry: the per-edge weights as a column, the gathered rows -/

theorem W3_v3 : W3 m ρ c (Proc.devRef .tc main_v3) = val_main_v3 (F := F) (m ((c : Thread nD τ).loc main_arg1)) := by
  refine Eq.trans ?_ (W2_v3 m ρ c)
  show StableHlo.after hostOps0_2 (W2 m ρ c) (Proc.devRef .tc main_v3) = W2 m ρ c (Proc.devRef .tc main_v3)
  not_written hostOps0_2

theorem W3_v6 : W3 m ρ c (Proc.devRef .tc main_v6) = val_main_v6 (F := F) (m ((c : Thread nD τ).loc main_arg1)) := by
  refine Eq.trans ?_ (W2_v6 m ρ c)
  show StableHlo.after hostOps0_2 (W2 m ρ c) (Proc.devRef .tc main_v6) = W2 m ρ c (Proc.devRef .tc main_v6)
  not_written hostOps0_2

set_option maxHeartbeats 4000000 in
theorem W3_v37 : W3 m ρ c (Proc.devRef .tc main_v37) = val_main_v37 (F := F) (m ((c : Thread nD τ).loc main_arg0)) (m ((c : Thread nD τ).loc main_arg1)) := by
  have h0 := W2_arg0 m ρ c
  have h6 := W2_v6 m ρ c
  show StableHlo.after hostOps0_2 (W2 m ρ c) (Proc.devRef .tc main_v37) = _
  generalize W2 m ρ c = Wv at h0 h6 ⊢
  after_results_simp
  rw [h0, h6]
  rfl

set_option maxHeartbeats 4000000 in
/-- The weight column at row `r` is the reference's weight of edge `r`. -/
theorem W3_v30 (r : Fin 1700000) :
    (W3 m ρ c (Proc.devRef .tc main_v30) : S1700000x1.Idx → Elt F .f32) (ix2 r (0 : Fin 1)) = val_main_v29 (F := F) (m ((c : Thread nD τ).loc main_arg1)) (ix1 r) := by
  have h3 := W2_v3 m ρ c
  have h6 := W2_v6 m ρ c
  have h14 := W2_v14 m ρ c
  show StableHlo.after hostOps0_2 (W2 m ρ c) (Proc.devRef .tc main_v30) (ix2 r (0 : Fin 1)) = _
  generalize W2 m ρ c = Wv at h3 h6 h14 ⊢
  after_results_simp
  rw [h3, h6, h14]
  refine (Cert.LibColumns.shapeCast_a_a1_apply _ _ r (0 : Fin 1)).trans ?_
  rfl

end Glue

section Regions

variable (m : (ℓ : Loc nD τ sig) → Buf (Elt Ideal) ℓ) (ρ : Dev nD → PrngReg) (c : Dev nD)

/-! ## The first hop -/

/-- The first region's output: the reference's product of the weights with the gathered rows. -/
theorem W4_v38 : W4 m ρ c (Proc.devRef .tc main_v38) = val_main_v39 (F := Ideal) (m ((c : Thread nD τ).loc main_arg0)) (m ((c : Thread nD τ).loc main_arg1)) := by
  refine (W4_arr m ρ c 2).trans ?_
  rw [Cert.KernelIdeal.HopRegion0.arr0 (V3 m ρ) c, Cert.ReferenceIdeal.RefReads.v39_eq]
  exact congrArg₂ (Cert.Spec.scaleRows (n := 1700000) (d := 64)) (W3_v37 m ρ c) (funext fun r => W3_v30 m ρ c r)

theorem W4_v3 : W4 m ρ c (Proc.devRef .tc main_v3) = val_main_v3 (F := Ideal) (m ((c : Thread nD τ).loc main_arg1)) :=
  (W4_of_ne m ρ c main_v3 (by decide)).trans (W3_v3 m ρ c)

theorem W4_v6 : W4 m ρ c (Proc.devRef .tc main_v6) = val_main_v6 (F := Ideal) (m ((c : Thread nD τ).loc main_arg1)) :=
  (W4_of_ne m ρ c main_v6 (by decide)).trans (W3_v6 m ρ c)

theorem W4_v30 (r : Fin 1700000) :
    (W4 m ρ c (Proc.devRef .tc main_v30) : S1700000x1.Idx → EReal) (ix2 r (0 : Fin 1)) = val_main_v29 (F := Ideal) (m ((c : Thread nD τ).loc main_arg1)) (ix1 r) :=
  (congrFun ((W4_arr m ρ c 1).trans (((dat0 (V3 m ρ) c).arrAt_in 1 rfl _).trans (A_eq0 (V3 m ρ) c 1))) (ix2 r (0 : Fin 1))).trans (W3_v30 m ρ c r)

/-! ## Between the hops: the first hop's scatter-add, then the second hop's gather -/

theorem W5_v3 : W5 m ρ c (Proc.devRef .tc main_v3) = val_main_v3 (F := Ideal) (m ((c : Thread nD τ).loc main_arg1)) := by
  refine Eq.trans ?_ (W4_v3 m ρ c)
  show StableHlo.after hostOps1 (W4 m ρ c) (Proc.devRef .tc main_v3) = W4 m ρ c (Proc.devRef .tc main_v3)
  not_written hostOps1

theorem W5_v30 (r : Fin 1700000) :
    (W5 m ρ c (Proc.devRef .tc main_v30) : S1700000x1.Idx → EReal) (ix2 r (0 : Fin 1)) = val_main_v29 (F := Ideal) (m ((c : Thread nD τ).loc main_arg1)) (ix1 r) := by
  refine Eq.trans (congrFun ?_ (ix2 r (0 : Fin 1))) (W4_v30 m ρ c r)
  show StableHlo.after hostOps1 (W4 m ρ c) (Proc.devRef .tc main_v30) = W4 m ρ c (Proc.devRef .tc main_v30)
  not_written hostOps1

set_option maxHeartbeats 4000000 in
theorem W5_v48 : W5 m ρ c (Proc.devRef .tc main_v48) = val_main_v50 (F := Ideal) (m ((c : Thread nD τ).loc main_arg0)) (m ((c : Thread nD τ).loc main_arg1)) := by
  have h38 := W4_v38 m ρ c
  have h3 := W4_v3 m ρ c
  have h6 := W4_v6 m ρ c
  show StableHlo.after hostOps1 (W4 m ρ c) (Proc.devRef .tc main_v48) = _
  generalize W4 m ρ c = Wv at h38 h3 h6 ⊢
  after_results_simp
  rw [h38, h3, h6]
  rfl

/-! ## The second hop -/

theorem W6_v49 : W6 m ρ c (Proc.devRef .tc main_v49) = val_main_v52 (F := Ideal) (m ((c : Thread nD τ).loc main_arg0)) (m ((c : Thread nD τ).loc main_arg1)) := by
  refine (W6_arr m ρ c 2).trans ?_
  rw [Cert.KernelIdeal.HopRegion1.arr1 (V5 m ρ) c, Cert.ReferenceIdeal.RefReads.v52_eq]
  exact congrArg₂ (Cert.Spec.scaleRows (n := 1700000) (d := 64)) (W5_v48 m ρ c) (funext fun r => W5_v30 m ρ c r)

theorem W6_v3 : W6 m ρ c (Proc.devRef .tc main_v3) = val_main_v3 (F := Ideal) (m ((c : Thread nD τ).loc main_arg1)) :=
  (W6_of_ne m ρ c main_v3 (by decide)).trans (W5_v3 m ρ c)

/-! ## Before the dense region: the second hop's scatter-add, the bias as a row -/

theorem W7_arg2 : W7 m ρ c (Proc.devRef .tc main_arg2) = m ((c : Thread nD τ).loc main_arg2) :=
  ((W8_arr m ρ c 1).trans (((dat2 (V7 m ρ) c).arrAt_in 1 rfl _).trans (A_eq2 (V7 m ρ) c 1))).symm.trans (W8_main_arg2 m ρ c)

theorem W7_arg3 : W7 m ρ c (Proc.devRef .tc main_arg3) = m ((c : Thread nD τ).loc main_arg3) :=
  (W8_of_ne m ρ c main_arg3 (by decide)).symm.trans (W8_main_arg3 m ρ c)

theorem W6_arg3 : W6 m ρ c (Proc.devRef .tc main_arg3) = m ((c : Thread nD τ).loc main_arg3) := by
  refine Eq.trans (Eq.symm ?_) (W7_arg3 m ρ c)
  show StableHlo.after hostOps2 (W6 m ρ c) (Proc.devRef .tc main_arg3) = W6 m ρ c (Proc.devRef .tc main_arg3)
  not_written hostOps2

theorem W7_v52 : W7 m ρ c (Proc.devRef .tc main_v52) = val_main_v55 (F := Ideal) (m ((c : Thread nD τ).loc main_arg0)) (m ((c : Thread nD τ).loc main_arg1)) := by
  have h49 := W6_v49 m ρ c
  have h3 := W6_v3 m ρ c
  show StableHlo.after hostOps2 (W6 m ρ c) (Proc.devRef .tc main_v52) = _
  generalize W6 m ρ c = Wv at h49 h3 ⊢
  after_results_simp
  rw [h49, h3]
  rfl

/-- The bias row at column `q` is the bias at `q`. -/
theorem W7_v53 (q : Fin 40) :
    (W7 m ρ c (Proc.devRef .tc main_v53) : S1x40.Idx → EReal) (ix2 (0 : Fin 1) q) = (m ((c : Thread nD τ).loc main_arg3) : S40.Idx → EReal) (ix1 q) := by
  have h3 := W6_arg3 m ρ c
  show StableHlo.after hostOps2 (W6 m ρ c) (Proc.devRef .tc main_v53) (ix2 (0 : Fin 1) q) = _
  generalize W6 m ρ c = Wv at h3 ⊢
  after_results_simp
  rw [h3]
  refine shapeCast_apply _ _ _ (ix1 q) ?_
  show ((⟨1, ![40]⟩ : Shape).rowMajor (ix1 q)).val = ((⟨2, ![1, 40]⟩ : Shape).rowMajor (ix2 (0 : Fin 1) q)).val
  rw [Shape.rowMajor_val_one, Shape.rowMajor_val_two]
  show q.val = 0 * 40 + q.val
  omega

/-! ## The result -/

/-- The kernel program's result array at the last boundary is the reference's result stage of the four arguments. -/
theorem result_eq : W8 m ρ c (Proc.devRef .tc main_v54)
    = val_main_v60 (F := Ideal) (m ((c : Thread nD τ).loc main_arg0)) (m ((c : Thread nD τ).loc main_arg1)) (m ((c : Thread nD τ).loc main_arg2)) (m ((c : Thread nD τ).loc main_arg3)) := by
  refine (W8_arr m ρ c 3).trans ?_
  rw [Cert.KernelIdeal.DenseRegion.arr_eq (V7 m ρ) c, Cert.ReferenceIdeal.RefReads.v60_eq]
  have hx := W7_v52 m ρ c
  have hw := W7_arg2 m ρ c
  have hb : (fun q : Fin 40 => (V7 m ρ c main_v53 : S1x40.Idx → EReal) (ix2 (0 : Fin 1) q)) = fun q => (m ((c : Thread nD τ).loc main_arg3) : S40.Idx → EReal) (ix1 q) :=
    funext fun q => W7_v53 m ρ c q
  show Cert.Spec.dense (n := 100000) (W7 m ρ c (Proc.devRef .tc main_v52)) (W7 m ρ c (Proc.devRef .tc main_arg2)) _ = _
  rw [hx, hw, hb]

end Regions

end Cert.KernelIdeal.Fold

end
-- ==== Proof.lean ====
/-
  Two hops of a sparse, symmetrically normalised graph propagation followed by a linear layer and a row-wise
  log-softmax: the kernel program against its jnp reference, over the extended reals.

  Both programs build the same edge list (the given edges and one self loop per node), the same degrees by a
  scatter-add of ones, the same weights `d_r^{-1/2} · d_c^{-1/2}` per edge, and per hop gather the source rows, weight
  them and scatter-add them into the destination rows. The kernel program does the weighting in a kernel region, block
  by block of 20000 edges: each row times its weight, which is the reference's product with the factors exchanged, so
  the two agree by commutativity of the product of extended reals (no finiteness is used). The last region computes
  `x · W + b` block by block of 10000 rows and the log-softmax of each row; the reference computes the same sums of
  64 products, the same row maximum from `-∞` and the same sum of 40 exponentials, and its extra `max(-∞, ·)` is the
  identity. So the kernel program's result array holds, index by index, the reference's result stage of the four
  arguments (Proof/KernelValue.lean over Proof/Hop0.lean, Proof/Hop1.lean, Proof/DenseRegion.lean, Proof/RefReads.lean; the reference's own run is Proof/RefRunSteps.lean).
  The frames are the generated ones; the idealization rewrote nothing, so `preserves` is trivial.
-/
import proofs.«138171_j6700148982288_1_alg».proof.Defs
import proofs.«138171_j6700148982288_1_alg».proof.Proof.Gen.Kernel
import proofs.«138171_j6700148982288_1_alg».proof.Proof.Gen.Kernel.Skeleton
import proofs.«138171_j6700148982288_1_alg».proof.Proof.Gen.Kernel.Launch
import proofs.«138171_j6700148982288_1_alg».proof.Proof.Gen.Kernel.Points
import proofs.«138171_j6700148982288_1_alg».proof.Proof.Gen.Kernel.Frame
import proofs.«138171_j6700148982288_1_alg».proof.Proof.Gen.KernelIdeal
import proofs.«138171_j6700148982288_1_alg».proof.Proof.Gen.KernelIdeal.Skeleton
import proofs.«138171_j6700148982288_1_alg».proof.Proof.Gen.KernelIdeal.Launch
import proofs.«138171_j6700148982288_1_alg».proof.Proof.Gen.KernelIdeal.Points
import proofs.«138171_j6700148982288_1_alg».proof.Proof.Gen.KernelIdeal.Frame
import proofs.«138171_j6700148982288_1_alg».proof.Proof.Gen.ReferenceIdeal
import proofs.«138171_j6700148982288_1_alg».proof.Proof.Gen.Pre_finite_inputs
import proofs.«138171_j6700148982288_1_alg».proof.Proof.KernelRun
import proofs.«138171_j6700148982288_1_alg».proof.Proof.RefRunSteps
import proofs.«138171_j6700148982288_1_alg».proof.Proof.RefRead
import proofs.«138171_j6700148982288_1_alg».proof.Proof.KernelValue
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunSteps.run (F := Ideal) m ρ)

/-- Both programs end with the reference's result stage of the kernel program's four arguments: the kernel program by
    the fold through its host stretches and regions, the reference by its run read stretch by stretch over the same stages, its arguments
    being the kernel program's. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.ReadP.val_main_v60 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.Fold.result_eq m ρ c), (h c).2⟩)
      (Cert.KernelIdeal.Gen.run_named (F := Ideal) m ρ)
  · refine (θ_run Cert.ReferenceIdeal.defs _ _).mono (fun _ h c => ⟨(h c).1.trans ?_, (h c).2⟩)
      (Cert.ReferenceIdeal.RunSteps.run (F := Ideal) m' ρ')
    rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
